-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x16384 : Shape := ⟨2, ![4096, 16384]⟩
abbrev S16384 : Shape := ⟨1, ![16384]⟩
abbrev S_ : Shape := ⟨0, ![]⟩

class Facts : Prop where
  bcast_S_S4096x16384 : S_.BroadcastsInDim S4096x16384 (![] : Fin 0 → Fin S4096x16384.rank)
  reducesTo_S4096x16384_S_d0_1 : S4096x16384.ReducesTo [0, 1] S_
  h_S_ : 0 < S_.numel
  bcast_S_S16384 : S_.BroadcastsInDim S16384 (![] : Fin 0 → Fin S16384.rank)
  reducesTo_S16384_S_d0 : S16384.ReducesTo [0] S_

variable [Facts]

def fn {F : FTy → Type} [FloatOps F] (main_arg0 : FVec F S4096x16384 .f32) (main_arg1 : FVec F S16384 .f32) (main_arg2 : IVec S4096x16384 32) (main_arg3 : IVec S4096x16384 32) : IVec S_ 1 :=
  let main_v0 : FVec F S4096x16384 .f32 := Host.absf main_arg0
  let main_cst : FVec F S_ .f32 := constant S_ .f32 0x7F800000#32
  let main_v1 : FVec F S4096x16384 .f32 := broadcastInDim S4096x16384 ![] bcast_S_S4096x16384 main_cst
  let main_v2 : IVec S4096x16384 1 := cmpf .olt main_v0 main_v1
  let main_c : IVec S_ 1 := constantI S_ 1 1#1
  let main_v3 : IVec S_ 1 := (fun x v => Host.reduce IntOp.andi x v reducesTo_S4096x16384_S_d0_1 h_S_) main_v2 main_c
  let main_v4 : FVec F S16384 .f32 := Host.absf main_arg1
  let main_cst_0 : FVec F S_ .f32 := constant S_ .f32 0x7F800000#32
  let main_v5 : FVec F S16384 .f32 := broadcastInDim S16384 ![] bcast_S_S16384 main_cst_0
  let main_v6 : IVec S16384 1 := cmpf .olt main_v4 main_v5
  let main_c_1 : IVec S_ 1 := constantI S_ 1 1#1
  let main_v7 : IVec S_ 1 := (fun x v => Host.reduce IntOp.andi x v reducesTo_S16384_S_d0 h_S_) main_v6 main_c_1
  let main_v8 : IVec S_ 1 := andi main_v3 main_v7
  main_v8
-- ==== Kernel.lean ====
abbrev S4096x16384 : Shape := ⟨2, ![4096, 16384]⟩
abbrev S16384 : Shape := ⟨1, ![16384]⟩
abbrev S1x16384 : Shape := ⟨2, ![1, 16384]⟩
abbrev S1024x2048 : Shape := ⟨2, ![1024, 2048]⟩
abbrev S1x2048 : Shape := ⟨2, ![1, 2048]⟩
abbrev S1x1024 : Shape := ⟨2, ![1, 1024]⟩

abbrev nBuf : Space → Nat
  | .hbm => 7
  | .vmem => 9
  | .smem => 0
  | _ => 0

abbrev bufTy : (tb : Table) → Fin (tcTables nBuf tb) → BufTy
  | .hbm, ⟨0, _⟩ => ⟨S4096x16384, .f32⟩
  | .hbm, ⟨1, _⟩ => ⟨S16384, .f32⟩
  | .hbm, ⟨2, _⟩ => ⟨S4096x16384, .i32⟩
  | .hbm, ⟨3, _⟩ => ⟨S4096x16384, .i32⟩
  | .hbm, ⟨4, _⟩ => ⟨S1x16384, .f32⟩
  | .hbm, ⟨5, _⟩ => ⟨S1x16384, .f32⟩
  | .hbm, ⟨6, _⟩ => ⟨S16384, .f32⟩
  | .local _ .vmem, ⟨0, _⟩ => ⟨S1024x2048, .f32⟩
  | .local _ .vmem, ⟨1, _⟩ => ⟨S1024x2048, .f32⟩
  | .local _ .vmem, ⟨2, _⟩ => ⟨S1024x2048, .i32⟩
  | .local _ .vmem, ⟨3, _⟩ => ⟨S1024x2048, .i32⟩
  | .local _ .vmem, ⟨4, _⟩ => ⟨S1x2048, .f32⟩
  | .local _ .vmem, ⟨5, _⟩ => ⟨S1x2048, .f32⟩
  | .local _ .vmem, ⟨6, _⟩ => ⟨S1x2048, .f32⟩
  | .local _ .vmem, ⟨7, _⟩ => ⟨S1x2048, .f32⟩
  | .local _ .vmem, ⟨8, _⟩ => ⟨S1x2048, .f32⟩
  | _, _ => ⟨S4096x16384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 4], ![false, false]⟩

def k0_cond2 (i : grid0.Coords) : BitVec 1 :=
  let arg1 : BitVec 32 := BitVec.ofNat 32 (i 1).val
  let c3_i32 : BitVec 32 := 3#32
  let v54 : BitVec 1 := Scalar.cmpi .eq arg1 c3_i32
  let v55 : BitVec 32 := Scalar.extui v54
  let c0_i32_15 : BitVec 32 := 0#32
  let v56 : BitVec 1 := Scalar.cmpi .ne v55 c0_i32_15
  v56

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x2048 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  shapeCasts_S16384_S1x16384 : S16384.ShapeCasts S1x16384
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  inb_S1024x2048_S1024x2048_0_0 : ∀ a, (![0, 0] : Fin 2 → Nat) a + S1024x2048.size a ≤ S1024x2048.size a
  h_S1024x2048 : 0 < S1024x2048.numel
  natLt_1_32 : 1 < 32
  bitsLt_bf16_f32 : FTy.bits .bf16 < FTy.bits .f32
  shapeCasts_S1x16384_S16384 : S1x16384.ShapeCasts S16384
  dot_S1x1024_S1024x2048_S1x2048_1_0_0_1_n_n_wf : DotDims.WF S1x1024 S1024x2048 S1x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S4096x16384.size a
  hwx0_0 : ∀ i : grid0.Coords, EltTy.bits .f32 = 32 ∨ (Rect.block (s := S4096x16384) S1024x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x2048.size a ≤ S4096x16384.size a
  hwx0_1 : ∀ i : grid0.Coords, EltTy.bits .i32 = 32 ∨ (Rect.block (s := S4096x16384) S1024x2048.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048.size a ≤ S1x16384.size a
  hwx0_2 : ∀ i : grid0.Coords, EltTy.bits .f32 = 32 ∨ (Rect.block (s := S1x16384) S1x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x2048.size a ≤ S1x16384.size a
  hwx0_3 : ∀ i : grid0.Coords, EltTy.bits .f32 = 32 ∨ (Rect.block (s := S1x16384) S1x2048.size (cc0_transform_3 i) (hinb0_3 i)).WholeWords (EltTy.packing .f32)

variable [Facts₀]

def dot_S1x1024_S1024x2048_S1x2048_1_0_0_1_n_n : DotDims S1x1024 S1024x2048 S1x2048 where
  lhsContracting := [1]
  rhsContracting := [0]
  lhsNonContracting := [0]
  rhsNonContracting := [1]
  lhsBatch := []
  rhsBatch := []
  wf := dot_S1x1024_S1024x2048_S1x2048_1_0_0_1_n_n_wf

abbrev win0_0 : Pipeline.Window sig grid0 :=
  Pipeline.Window.ofSpec (Memref.whole main_arg0) S1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S1024x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x2048.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S4096x16384 : Shape := ⟨2, ![4096, 16384]⟩
abbrev S16384 : Shape := ⟨1, ![16384]⟩
abbrev S256 : Shape := ⟨1, ![256]⟩
abbrev S_ : Shape := ⟨0, ![]⟩
abbrev S4096x16384x1 : Shape := ⟨3, ![4096, 16384, 1]⟩

abbrev nBuf : Space → Nat
  | .hbm => 52
  | .vmem => 0
  | .smem => 0
  | _ => 0

abbrev bufTy : (tb : Table) → Fin (tcTables nBuf tb) → BufTy
  | .hbm, ⟨0, _⟩ => ⟨S4096x16384, .f32⟩
  | .hbm, ⟨1, _⟩ => ⟨S16384, .f32⟩
  | .hbm, ⟨2, _⟩ => ⟨S4096x16384, .i32⟩
  | .hbm, ⟨3, _⟩ => ⟨S4096x16384, .i32⟩
  | .hbm, ⟨4, _⟩ => ⟨S256, .f32⟩
  | .hbm, ⟨5, _⟩ => ⟨S_, .f32⟩
  | .hbm, ⟨6, _⟩ => ⟨S4096x16384, .f32⟩
  | .hbm, ⟨7, _⟩ => ⟨S4096x16384, .f32⟩
  | .hbm, ⟨8, _⟩ => ⟨S_, .f32⟩
  | .hbm, ⟨9, _⟩ => ⟨S4096x16384, .f32⟩
  | .hbm, ⟨10, _⟩ => ⟨S4096x16384, .f32⟩
  | .hbm, ⟨11, _⟩ => ⟨S4096x16384, .f32⟩
  | .hbm, ⟨12, _⟩ => ⟨S_, .i32⟩
  | .hbm, ⟨13, _⟩ => ⟨S_, .i32⟩
  | .hbm, ⟨14, _⟩ => ⟨S_, .i32⟩
  | .hbm, ⟨15, _⟩ => ⟨S_, .i1⟩
  | .hbm, ⟨16, _⟩ => ⟨S_, .i32⟩
  | .hbm, ⟨17, _⟩ => ⟨S_, .i32⟩
  | .hbm, ⟨18, _⟩ => ⟨S4096x16384, .i32⟩
  | .hbm, ⟨19, _⟩ => ⟨S4096x16384, .i32⟩
  | .hbm, ⟨20, _⟩ => ⟨S_, .i32⟩
  | .hbm, ⟨21, _⟩ => ⟨S4096x16384, .i32⟩
  | .hbm, ⟨22, _⟩ => ⟨S4096x16384, .i1⟩
  | .hbm, ⟨23, _⟩ => ⟨S_, .i32⟩
  | .hbm, ⟨24, _⟩ => ⟨S4096x16384, .i32⟩
  | .hbm, ⟨25, _⟩ => ⟨S4096x16384, .i1⟩
  | .hbm, ⟨26, _⟩ => ⟨S_, .i32⟩
  | .hbm, ⟨27, _⟩ => ⟨S_, .i1⟩
  | .hbm, ⟨28, _⟩ => ⟨S4096x16384, .i1⟩
  | .hbm, ⟨29, _⟩ => ⟨S4096x16384, .i1⟩
  | .hbm, ⟨30, _⟩ => ⟨S4096x16384, .i1⟩
  | .hbm, ⟨31, _⟩ => ⟨S4096x16384, .i32⟩
  | .hbm, ⟨32, _⟩ => ⟨S4096x16384, .i32⟩
  | .hbm, ⟨33, _⟩ => ⟨S4096x16384, .i32⟩
  | .hbm, ⟨34, _⟩ => ⟨S_, .i32⟩
  | .hbm, ⟨35, _⟩ => ⟨S4096x16384, .i32⟩
  | .hbm, ⟨36, _⟩ => ⟨S4096x16384, .i1⟩
  | .hbm, ⟨37, _⟩ => ⟨S_, .i32⟩
  | .hbm, ⟨38, _⟩ => ⟨S4096x16384, .i32⟩
  | .hbm, ⟨39, _⟩ => ⟨S4096x16384, .i32⟩
  | .hbm, ⟨40, _⟩ => ⟨S4096x16384, .i32⟩
  | .hbm, ⟨41, _⟩ => ⟨S4096x16384x1, .i32⟩
  | .hbm, ⟨42, _⟩ => ⟨S4096x16384, .f32⟩
  | .hbm, ⟨43, _⟩ => ⟨S4096x16384, .i1⟩
  | .hbm, ⟨44, _⟩ => ⟨S4096x16384, .f32⟩
  | .hbm, ⟨45, _⟩ => ⟨S_, .f32⟩
  | .hbm, ⟨46, _⟩ => ⟨S16384, .f32⟩
  | .hbm, ⟨47, _⟩ => ⟨S16384, .f32⟩
  | .hbm, ⟨48, _⟩ => ⟨S_, .f32⟩
  | .hbm, ⟨49, _⟩ => ⟨S16384, .f32⟩
  | .hbm, ⟨50, _⟩ => ⟨S16384, .i1⟩
  | .hbm, ⟨51, _⟩ => ⟨S16384, .f32⟩
  | _, _ => ⟨S4096x16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_cst_0 : Ref sig .tc := ⟨.hbm, 5, rfl⟩
abbrev main_v0 : Ref sig .tc := ⟨.hbm, 6, rfl⟩
abbrev main_v1 : Ref sig .tc := ⟨.hbm, 7, rfl⟩
abbrev main_cst_1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_c : Ref sig .tc := ⟨.hbm, 12, rfl⟩
abbrev main_call1_v0 : Ref sig .tc := ⟨.hbm, 13, rfl⟩
abbrev main_call1_c : Ref sig .tc := ⟨.hbm, 14, rfl⟩
abbrev main_call1_v1 : Ref sig .tc := ⟨.hbm, 15, rfl⟩
abbrev main_call1_c_0 : Ref sig .tc := ⟨.hbm, 16, rfl⟩
abbrev main_call1_v2 : Ref sig .tc := ⟨.hbm, 17, rfl⟩
abbrev main_call1_v3 : Ref sig .tc := ⟨.hbm, 18, rfl⟩
abbrev main_call1_v4 : Ref sig .tc := ⟨.hbm, 19, rfl⟩
abbrev main_call1_c_1 : Ref sig .tc := ⟨.hbm, 20, rfl⟩
abbrev main_call1_v5 : Ref sig .tc := ⟨.hbm, 21, rfl⟩
abbrev main_call1_v6 : Ref sig .tc := ⟨.hbm, 22, rfl⟩
abbrev main_call1_c_2 : Ref sig .tc := ⟨.hbm, 23, rfl⟩
abbrev main_call1_v7 : Ref sig .tc := ⟨.hbm, 24, rfl⟩
abbrev main_call1_v8 : Ref sig .tc := ⟨.hbm, 25, rfl⟩
abbrev main_call1_c_3 : Ref sig .tc := ⟨.hbm, 26, rfl⟩
abbrev main_call1_v9 : Ref sig .tc := ⟨.hbm, 27, rfl⟩
abbrev main_call1_v10 : Ref sig .tc := ⟨.hbm, 28, rfl⟩
abbrev main_call1_v11 : Ref sig .tc := ⟨.hbm, 29, rfl⟩
abbrev main_call1_v12 : Ref sig .tc := ⟨.hbm, 30, rfl⟩
abbrev main_call1_v13 : Ref sig .tc := ⟨.hbm, 31, rfl⟩
abbrev main_call1_v14 : Ref sig .tc := ⟨.hbm, 32, rfl⟩
abbrev main_v5 : Ref sig .tc := ⟨.hbm, 33, rfl⟩
abbrev main_c_2 : Ref sig .tc := ⟨.hbm, 34, rfl⟩
abbrev main_v6 : Ref sig .tc := ⟨.hbm, 35, rfl⟩
abbrev main_v7 : Ref sig .tc := ⟨.hbm, 36, rfl⟩
abbrev main_c_3 : Ref sig .tc := ⟨.hbm, 37, rfl⟩
abbrev main_v8 : Ref sig .tc := ⟨.hbm, 38, rfl⟩
abbrev main_v9 : Ref sig .tc := ⟨.hbm, 39, rfl⟩
abbrev main_v10 : Ref sig .tc := ⟨.hbm, 40, rfl⟩
abbrev main_v11 : Ref sig .tc := ⟨.hbm, 41, rfl⟩
abbrev main_v12 : Ref sig .tc := ⟨.hbm, 42, rfl⟩
abbrev main_v13 : Ref sig .tc := ⟨.hbm, 43, rfl⟩
abbrev main_v14 : Ref sig .tc := ⟨.hbm, 44, rfl⟩
abbrev main_cst_4 : Ref sig .tc := ⟨.hbm, 45, rfl⟩
abbrev main_v15 : Ref sig .tc := ⟨.hbm, 46, rfl⟩
abbrev main_v16 : Ref sig .tc := ⟨.hbm, 47, rfl⟩
abbrev main_cst_5 : Ref sig .tc := ⟨.hbm, 48, rfl⟩
abbrev main_v17 : Ref sig .tc := ⟨.hbm, 49, rfl⟩
abbrev main_v18 : Ref sig .tc := ⟨.hbm, 50, rfl⟩
abbrev main_v19 : Ref sig .tc := ⟨.hbm, 51, rfl⟩

abbrev nD : Nat := 1
abbrev τ : Topo := Topo.v7x

variable {F : FTy → Type} [FloatOps F]

class Facts₀ : Prop where
  bcast_S_S4096x16384 : S_.BroadcastsInDim S4096x16384 (![] : Fin 0 → Fin S4096x16384.rank)
  bcast_S4096x16384_S4096x16384x1_0_1 : S4096x16384.BroadcastsInDim S4096x16384x1 (![0, 1] : Fin 2 → Fin S4096x16384x1.rank)
  reducesTo_S4096x16384_S16384_d0 : S4096x16384.ReducesTo [0] S16384
  h_S_ : 0 < S_.numel
  bcast_S_S16384 : S_.BroadcastsInDim S16384 (![] : Fin 0 → Fin S16384.rank)
  gather_S256_S4096x16384x1_S4096x16384_n_0_n_n_0_2_1_wf : GatherDims.WF S256 S4096x16384x1 S4096x16384 [] [0] [] [0] [] 2 ![1]

variable [Facts₀]

def gather_S256_S4096x16384x1_S4096x16384_n_0_n_n_0_2_1 : GatherDims S256 S4096x16384x1 S4096x16384 where
  offsetDims := []
  collapsedSliceDims := [0]
  operandBatchingDims := []
  startIndicesBatchingDims := []
  startIndexMap := [0]
  indexVectorDim := 2
  sliceSizes := ![1]
  wf := gather_S256_S4096x16384x1_S4096x16384_n_0_n_n_0_2_1_wf

class Facts : Prop extends Facts₀ where

variable [Facts]
-- ==== Proof.KerPieces.lean ====
/-
  What one grid point of the kernel leaves behind, as values.

  The grid is 8 column tiles by 4 row tiles, the row tile innermost.  The body keeps a running count per column
  in a one-row scratch: at the first row tile of a column tile it stores a zero row, then (at every row tile) it
  reads the row back and stores `acc + ones · bits`, the tile's bits summed down its 1024 rows by a product with a
  row of ones; at the last row tile it also stores, into the output block, the test `accumulator + count ≥ 4096`.
  Here each of these stores is read back as ONE function of the point's input blocks and of the scratch row the
  point started from: `upd x p s` for the scratch, and the closing test of it for the output block.
-/
import proofs.«419859_j75703093559676_3_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.KerValue

open Cert.KernelIdeal Cert.KernelIdeal.Gen

variable {F : FTy → Type} [FloatOps F]

theorem hz : (![0, 0] : Fin 2 → Nat) = fun _ => 0 := funext fun a => by fin_cases a <;> rfl

/-- One row tile's update of the running count: the row `s` plus, per column, the number of rows of the tile whose
    source value exceeds its threshold (`x` the probabilities' block, `p` the index words' block). -/
abbrev upd (x : Vec F S1024x2048 .f32) (p : Vec F S1024x2048 .i32) (s : Vec F S1x2048 .f32) : Vec F S1x2048 .f32 :=
  k0_pay1 (k0_pay4 x) (k0_pay5 p) (k0_pay6 p) k0_pay7 s

/-- At a column tile's first row tile the scratch ends at the update of the zero row: the zero row is stored,
    read back whole, and the update stored over it. -/
theorem sout_A (c : Dev nD) (i : grid0.Coords) (arg2 : Memref sig .tc .vmem S1024x2048 .f32) (harg2 : arg2.IsWhole) (arg3 : Memref sig .tc .vmem S1024x2048 .i32) (harg3 : arg3.IsWhole) (arg4 : Memref sig .tc .vmem S1x2048 .f32) (harg4 : arg4.IsWhole) (arg5 : Memref sig .tc .vmem S1x2048 .f32) (harg5 : arg5.IsWhole) (arg6 : Memref sig .tc .vmem S1x2048 .f32) (harg6 : arg6.IsWhole) (hc0 : cond0_0 i) (hc1 : ¬cond0_1 i)
    (x0 : Vec F S1024x2048 .f32) (x1 : Vec F S1024x2048 .i32) (x2 : Vec F S1x2048 .f32) :
    sout0_A_0 c i arg2 harg2 arg3 harg3 arg4 harg4 arg5 harg5 arg6 harg6 hc0 hc1 x0 x1 x2 = upd x0 x1 (k0_pay3 (F := F)) := by
  unfold sout0_A_0
  rw [View.read_writes_eq_canon _ _ _ (scover0_A_0 c i arg2 harg2 arg3 harg3 arg4 harg4 arg5 harg5 arg6 harg6 hc0 hc1 x0 x1 x2)]
  unfold kernelRun0_A
  dsimp only
  sl_unfold_words
  rw [View.canon_cons_unit_zero (S := S1x2048) hz, View.readCov_unit_zero (S := S1x2048) _ hz]
  simp only [View.readAt_eq_ld, harg2.read_unread, harg3.read_unread, View.ld_unit_zero (S := S1024x2048) hz]

/-- At a middle row tile the scratch ends at the update of what the point before left. -/
theorem sout_B (c : Dev nD) (i : grid0.Coords) (arg2 : Memref sig .tc .vmem S1024x2048 .f32) (harg2 : arg2.IsWhole) (arg3 : Memref sig .tc .vmem S1024x2048 .i32) (harg3 : arg3.IsWhole) (arg4 : Memref sig .tc .vmem S1x2048 .f32) (harg4 : arg4.IsWhole) (arg5 : Memref sig .tc .vmem S1x2048 .f32) (harg5 : arg5.IsWhole) (arg6 : Memref sig .tc .vmem S1x2048 .f32) (harg6 : arg6.IsWhole) (hc0 : ¬cond0_0 i) (hc1 : ¬cond0_1 i)
    (x0 : Vec F S1024x2048 .f32) (x1 : Vec F S1024x2048 .i32) (x2 : Vec F S1x2048 .f32) (xs0 : Vec F S1x2048 .f32) :
    sout0_B_0 c i arg2 harg2 arg3 harg3 arg4 harg4 arg5 harg5 arg6 harg6 hc0 hc1 x0 x1 x2 xs0 = upd x0 x1 xs0 := by
  unfold sout0_B_0
  rw [View.read_writes_eq_canon _ _ _ (scover0_B_0 c i arg2 harg2 arg3 harg3 arg4 harg4 arg5 harg5 arg6 harg6 hc0 hc1 x0 x1 x2 xs0)]
  unfold kernelRun0_B
  dsimp only
  sl_unfold_words
  rw [View.canon_unit_zero hz]
  simp only [View.readAt_eq_ld, harg2.read_unread, harg3.read_unread, harg6.read_unread,
    View.ld_unit_zero (S := S1024x2048) hz, View.ld_unit_zero (S := S1x2048) hz]

/-- At the last row tile the scratch ends, likewise, at the update of what the point before left; -/
theorem sout_C (c : Dev nD) (i : grid0.Coords) (arg2 : Memref sig .tc .vmem S1024x2048 .f32) (harg2 : arg2.IsWhole) (arg3 : Memref sig .tc .vmem S1024x2048 .i32) (harg3 : arg3.IsWhole) (arg4 : Memref sig .tc .vmem S1x2048 .f32) (harg4 : arg4.IsWhole) (arg5 : Memref sig .tc .vmem S1x2048 .f32) (harg5 : arg5.IsWhole) (arg6 : Memref sig .tc .vmem S1x2048 .f32) (harg6 : arg6.IsWhole) (hc0 : ¬cond0_0 i) (hc1 : cond0_1 i)
    (x0 : Vec F S1024x2048 .f32) (x1 : Vec F S1024x2048 .i32) (x2 : Vec F S1x2048 .f32) (xs0 : Vec F S1x2048 .f32) :
    sout0_C_0 c i arg2 harg2 arg3 harg3 arg4 harg4 arg5 harg5 arg6 harg6 hc0 hc1 x0 x1 x2 xs0 = upd x0 x1 xs0 := by
  unfold sout0_C_0
  rw [View.read_writes_eq_canon _ _ _ (scover0_C_0 c i arg2 harg2 arg3 harg3 arg4 harg4 arg5 harg5 arg6 harg6 hc0 hc1 x0 x1 x2 xs0)]
  unfold kernelRun0_C
  dsimp only
  sl_unfold_words
  rw [View.canon_unit_zero hz]
  simp only [View.readAt_eq_ld, harg2.read_unread, harg3.read_unread, harg6.read_unread,
    View.ld_unit_zero (S := S1024x2048) hz, View.ld_unit_zero (S := S1x2048) hz]

/-- and the output block is the closing test of the accumulator's block `x2` against that final count. -/
theorem out_C (c : Dev nD) (i : grid0.Coords) (arg2 : Memref sig .tc .vmem S1024x2048 .f32) (harg2 : arg2.IsWhole) (arg3 : Memref sig .tc .vmem S1024x2048 .i32) (harg3 : arg3.IsWhole) (arg4 : Memref sig .tc .vmem S1x2048 .f32) (harg4 : arg4.IsWhole) (arg5 : Memref sig .tc .vmem S1x2048 .f32) (harg5 : arg5.IsWhole) (arg6 : Memref sig .tc .vmem S1x2048 .f32) (harg6 : arg6.IsWhole) (hc0 : ¬cond0_0 i) (hc1 : cond0_1 i)
    (x0 : Vec F S1024x2048 .f32) (x1 : Vec F S1024x2048 .i32) (x2 : Vec F S1x2048 .f32) (xs0 : Vec F S1x2048 .f32) :
    out0_C_3 c i arg2 harg2 arg3 harg3 arg4 harg4 arg5 harg5 arg6 harg6 hc0 hc1 x0 x1 x2 xs0 = k0_pay2 x2 (upd x0 x1 xs0) := by
  unfold out0_C_3
  rw [View.read_writes_eq_canon _ _ _ (cover0_C_3 c i arg2 harg2 arg3 harg3 arg4 harg4 arg5 harg5 arg6 harg6 hc0 hc1 x0 x1 x2 xs0)]
  unfold kernelRun0_C
  dsimp only
  sl_unfold_words
  rw [View.canon_unit_zero hz]
  simp only [View.readAt_eq_ld, harg2.read_unread, harg3.read_unread, harg4.read_unread, harg6.read_unread,
    View.readCov_unit_zero (S := S1x2048) _ hz,
    View.ld_unit_zero (S := S1024x2048) hz, View.ld_unit_zero (S := S1x2048) hz]

end Cert.KernelIdeal.KerValue

end
-- ==== Proof.KerAccum.lean ====
/-
  The running count across a column tile's four grid points.

  Point `t` of the grid works on column tile `t / 4` and row tile `t % 4`.  What the scratch holds after a point is
  the update (`upd`) of what the point before left, restarted from the zero row at each column tile's first point;
  the output block is written at the last row tile only, as the closing test of the accumulator's block against the
  scratch at that moment.  Unfolding four points back from a column tile's last one, its output block is the closing
  test against `upd b₃ (upd b₂ (upd b₁ (upd b₀ zero)))` of the tile's four pairs of input blocks `bⱼ`.
-/
import proofs.«419859_j75703093559676_3_alg».proof.Proof.KerPieces

set_option maxRecDepth 16384

noncomputable section

open Idealize.ShloMosaic Idealize.ShloMosaic.TcCoe Idealize.SL.Sem
open Idealize.ShloMosaic.Pipeline (Dat)

namespace Cert.KernelIdeal.KerValue

open Cert.KernelIdeal Cert.KernelIdeal.Gen

variable {F : FTy → Type} [FloatOps F]
variable (m : (ℓ : Loc nD τ sig) → Buf (Elt F) ℓ)

/-- The probabilities' block at a point, -/
abbrev pblk (c : Dev nD) (t : Fin cfg0.N) : Vec F S1024x2048 .f32 := iblk m c 0 t
/-- the index words' block, -/
abbrev wblk (c : Dev nD) (t : Fin cfg0.N) : Vec F S1024x2048 .i32 := iblk m c 1 t
/-- and the accumulator's block (one row). -/
abbrev ablk (c : Dev nD) (t : Fin cfg0.N) : Vec F S1x2048 .f32 := iblk m c 2 t

/-- The zero row. -/
abbrev zrow : Vec F S1x2048 .f32 := k0_pay3 (F := F)

/-- After a column tile's first point the scratch is the update of the zero row. -/
theorem scr_first (c : Dev nD) (n : ℕ) (hn : n < cfg0.N) (h0 : n % 4 = 0) :
    (outsAt0 m c n hn).2 = upd (pblk m c ⟨n, hn⟩) (wblk m c ⟨n, hn⟩) (zrow (F := F)) := by
  have h1 : ¬(⟨n, hn⟩ : Fin cfg0.N).val % 4 = 3 := by dsimp only; omega
  rw [outsAt0_A m c ⟨n, hn⟩ h0 h1]
  dsimp only
  exact sout_A (F := F) c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) (ms0_3 ⟨n, hn⟩) (hs0_3 ⟨n, hn⟩) scM0_0 (Memref.isWhole_whole _) ((hcond0_0 ⟨n, hn⟩).mpr h0) (fun h => h1 ((hcond0_1 ⟨n, hn⟩).mp h)) (iblk m c 0 ⟨n, hn⟩) (iblk m c 1 ⟨n, hn⟩) (iblk m c 2 ⟨n, hn⟩)

/-- After a middle point it is the update of what the point before left. -/
theorem scr_mid (c : Dev nD) (n : ℕ) (hn : n + 1 < cfg0.N) (h0 : ¬(n + 1) % 4 = 0) (h1 : ¬(n + 1) % 4 = 3) :
    (outsAt0 m c (n + 1) hn).2 = upd (pblk m c ⟨n + 1, hn⟩) (wblk m c ⟨n + 1, hn⟩) (outsAt0 m c n (Nat.lt_of_succ_lt hn)).2 := by
  rw [outsAt0_B m c ⟨n + 1, hn⟩ h0 h1]
  dsimp only
  exact sout_B (F := F) c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (outsAt0 m c n (Nat.lt_of_succ_lt hn)).2

/-- After a column tile's last point the output block is the closing test of the accumulator's block against the update
    of what the point before left. -/
theorem out_last (c : Dev nD) (n : ℕ) (hn : n + 1 < cfg0.N) (h0 : ¬(n + 1) % 4 = 0) (h1 : (n + 1) % 4 = 3) :
    (outsAt0 m c (n + 1) hn).1 = k0_pay2 (ablk m c ⟨n + 1, hn⟩)
      (upd (pblk m c ⟨n + 1, hn⟩) (wblk m c ⟨n + 1, hn⟩) (outsAt0 m c n (Nat.lt_of_succ_lt hn)).2) := by
  rw [outsAt0_C m c ⟨n + 1, hn⟩ h0 h1]
  dsimp only
  exact out_C (F := F) c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (outsAt0 m c n (Nat.lt_of_succ_lt hn)).2

/-- A column tile's output block, unfolded to the tile's first point: the closing test against the four updates, from the
    zero row, of the tile's four pairs of input blocks in row-tile order. -/
theorem flush_block (c : Dev nD) (n : ℕ) (hn : n + 1 + 1 + 1 < cfg0.N) (h0 : n % 4 = 0) :
    (outsAt0 m c (n + 1 + 1 + 1) hn).1 = k0_pay2 (ablk m c ⟨n + 1 + 1 + 1, hn⟩)
      (upd (pblk m c ⟨n + 1 + 1 + 1, hn⟩) (wblk m c ⟨n + 1 + 1 + 1, hn⟩)
        (upd (pblk m c ⟨n + 1 + 1, Nat.lt_of_succ_lt hn⟩) (wblk m c ⟨n + 1 + 1, Nat.lt_of_succ_lt hn⟩)
          (upd (pblk m c ⟨n + 1, Nat.lt_of_succ_lt (Nat.lt_of_succ_lt hn)⟩) (wblk m c ⟨n + 1, Nat.lt_of_succ_lt (Nat.lt_of_succ_lt hn)⟩)
            (upd (pblk m c ⟨n, Nat.lt_of_succ_lt (Nat.lt_of_succ_lt (Nat.lt_of_succ_lt hn))⟩) (wblk m c ⟨n, Nat.lt_of_succ_lt (Nat.lt_of_succ_lt (Nat.lt_of_succ_lt hn))⟩) (zrow (F := F)))))) := by
  rw [out_last m c (n + 1 + 1) hn (by omega) (by omega),
    scr_mid m c (n + 1) (Nat.lt_of_succ_lt hn) (by omega) (by omega),
    scr_mid m c n (Nat.lt_of_succ_lt (Nat.lt_of_succ_lt hn)) (by omega) (by omega),
    scr_first m c n (Nat.lt_of_succ_lt (Nat.lt_of_succ_lt (Nat.lt_of_succ_lt hn))) h0]

end Cert.KernelIdeal.KerValue

end
-- ==== Proof.KerBlocks.lean ====
/-
  Where the blocks sit in their arrays.

  Point `t` of the 8 × 4 grid stages, of the two [4096, 16384] arrays, the block of rows `1024 (t % 4) …` and columns
  `2048 (t / 4) …`; of the one-row accumulator and of the one-row result, the block of columns `2048 (t / 4) …`.  So an
  entry `(r, q)` of an input block is the array's entry `(1024 (t % 4) + r, 2048 (t / 4) + q)`, and the result's
  blocks, written back at each column tile's last point, tile the result row: column `f` is in column tile `f / 2048`.
-/
import proofs.«419859_j75703093559676_3_alg».proof.Proof.KerAccum
import Idealize.ShloMosaic.Lib.ValueIdx

set_option maxRecDepth 16384

noncomputable section

open Idealize.ShloMosaic Idealize.ShloMosaic.TcCoe Idealize.SL.Sem
open Idealize.ShloMosaic.Pipeline (Dat)
open Idealize.ShloMosaic.ValueIdx

namespace Cert.KernelIdeal.KerValue

open Cert.KernelIdeal Cert.KernelIdeal.Gen

variable {F : FTy → Type} [FloatOps F]
variable (m : (ℓ : Loc nD τ sig) → Buf (Elt F) ℓ)

/-- The printed index maps over the grid: row tile `t % 4` and column tile `t / 4` for the two big inputs, row 0 and
    column tile `t / 4` for the accumulator's row and the result's. -/
theorem idx_facts : ∀ t : Fin cfg0.N,
    win0_0.index t (0 : Fin 2) = t.val % 4 ∧ win0_0.index t (1 : Fin 2) = t.val / 4
    ∧ win0_1.index t (0 : Fin 2) = t.val % 4 ∧ win0_1.index t (1 : Fin 2) = t.val / 4
    ∧ win0_2.index t (0 : Fin 2) = 0 ∧ win0_2.index t (1 : Fin 2) = t.val / 4
    ∧ win0_3.index t (0 : Fin 2) = 0 ∧ win0_3.index t (1 : Fin 2) = t.val / 4 :=
  (by decide +kernel : ∀ t : Fin grid0.N, _)

/-- An entry of the probabilities' block at a point of row tile `j` and column tile `k`. -/
theorem pblk_apply (c : Dev nD) (t : Fin cfg0.N) (j k : ℕ) (hj : t.val % 4 = j) (hk : t.val / 4 = k)
    (r : Fin 1024) (q : Fin 2048) (h1 : 1024 * j + r.val < 4096) (h2 : 2048 * k + q.val < 16384) :
    pblk m c t (ix2 r q) = V m c main_arg0 (ix2 ⟨1024 * j + r.val, h1⟩ ⟨2048 * k + q.val, h2⟩) := by
  obtain ⟨e0, e1, -⟩ := idx_facts t
  show V m c main_arg0 (((cfg0.win 0).blk t).view.emb (ix2 r q)) = _
  congr 1
  funext a
  apply Fin.ext
  match a with
  | ⟨0, _⟩ => show win0_0.index t (0 : Fin 2) * 1024 + 1 * r.val = 1024 * j + r.val; omega
  | ⟨1, _⟩ => show win0_0.index t (1 : Fin 2) * 2048 + 1 * q.val = 2048 * k + q.val; omega

/-- An entry of the index words' block, likewise. -/
theorem wblk_apply (c : Dev nD) (t : Fin cfg0.N) (j k : ℕ) (hj : t.val % 4 = j) (hk : t.val / 4 = k)
    (r : Fin 1024) (q : Fin 2048) (h1 : 1024 * j + r.val < 4096) (h2 : 2048 * k + q.val < 16384) :
    wblk m c t (ix2 r q) = V m c main_arg3 (ix2 ⟨1024 * j + r.val, h1⟩ ⟨2048 * k + q.val, h2⟩) := by
  obtain ⟨-, -, e2, e3, -⟩ := idx_facts t
  show V m c main_arg3 (((cfg0.win 1).blk t).view.emb (ix2 r q)) = _
  congr 1
  funext a
  apply Fin.ext
  match a with
  | ⟨0, _⟩ => show win0_1.index t (0 : Fin 2) * 1024 + 1 * r.val = 1024 * j + r.val; omega
  | ⟨1, _⟩ => show win0_1.index t (1 : Fin 2) * 2048 + 1 * q.val = 2048 * k + q.val; omega

/-- An entry of the accumulator's block at a point of column tile `k`. -/
theorem ablk_apply (c : Dev nD) (t : Fin cfg0.N) (k : ℕ) (hk : t.val / 4 = k)
    (q : Fin 2048) (h2 : 2048 * k + q.val < 16384) :
    ablk m c t (ix2 (0 : Fin 1) q) = V m c main_v0 (ix2 (0 : Fin 1) ⟨2048 * k + q.val, h2⟩) := by
  obtain ⟨-, -, -, -, e4, e5, -⟩ := idx_facts t
  show V m c main_v0 (((cfg0.win 2).blk t).view.emb (ix2 (0 : Fin 1) q)) = _
  congr 1
  funext a
  apply Fin.ext
  match a with
  | ⟨0, _⟩ => show win0_2.index t (0 : Fin 2) * 1 + 1 * 0 = 0; omega
  | ⟨1, _⟩ => show win0_2.index t (1 : Fin 2) * 2048 + 1 * q.val = 2048 * k + q.val; omega

/-- Where the result's block at a point of column tile `k` puts its column `q`. -/
theorem emb3 (t : Fin cfg0.N) (k : ℕ) (hk : t.val / 4 = k) (q : Fin 2048) (h2 : 2048 * k + q.val < 16384) :
    ((cfg0.win 3).blk t).view.emb (ix2 (0 : Fin 1) q) = ix2 (0 : Fin 1) ⟨2048 * k + q.val, h2⟩ := by
  obtain ⟨-, -, -, -, -, -, e6, e7⟩ := idx_facts t
  funext a
  apply Fin.ext
  match a with
  | ⟨0, _⟩ => show win0_3.index t (0 : Fin 2) * 1 + 1 * 0 = 0; omega
  | ⟨1, _⟩ => show win0_3.index t (1 : Fin 2) * 2048 + 1 * q.val = 2048 * k + q.val; omega

/-- An index of the result row is in a point's block iff each coordinate is in the block's range on its axis. -/
theorem mem_blk3 (t : Fin cfg0.N) (i : S1x16384.Idx) :
    i ∈ ((cfg0.win 3).blk t).view.set ↔ ∀ a : Fin 2, win0_3.index t a * S1x2048.size a ≤ (i a).val ∧ (i a).val < win0_3.index t a * S1x2048.size a + S1x2048.size a := by
  show i ∈ ((View.whole main_v1).slice (win0_3.rect t)).set ↔ _
  rw [View.set_slice_whole, Rect.mem_set_unit]
  exact Iff.rfl

/-- Every column of the result row is written back: column `f` by the last point of column tile `f / 2048`. -/
theorem cover3 (i : S1x16384.Idx) :
    ∃ t : Fin cfg0.N, (cfg0.win 3).flush t = true ∧ i ∈ ((cfg0.win 3).blk t).view.set := by
  have hi0 : (i 0).val < 1 := (i 0).isLt
  have hi1 : (i 1).val < 16384 := (i 1).isLt
  have hN : cfg0.N = 32 := N_0
  have ht : 4 * ((i 1).val / 2048) + 3 < cfg0.N := by omega
  obtain ⟨-, -, -, -, -, -, e6, e7⟩ := idx_facts ⟨4 * ((i 1).val / 2048) + 3, ht⟩
  dsimp only at e6 e7
  refine ⟨⟨4 * ((i 1).val / 2048) + 3, ht⟩, (flush0_3 _).mpr (by dsimp only; omega), ?_⟩
  rw [mem_blk3]
  intro a
  match a with
  | ⟨0, _⟩ =>
    show win0_3.index ⟨4 * ((i 1).val / 2048) + 3, ht⟩ (0 : Fin 2) * 1 ≤ (i 0).val
      ∧ (i 0).val < win0_3.index ⟨4 * ((i 1).val / 2048) + 3, ht⟩ (0 : Fin 2) * 1 + 1
    omega
  | ⟨1, _⟩ =>
    show win0_3.index ⟨4 * ((i 1).val / 2048) + 3, ht⟩ (1 : Fin 2) * 2048 ≤ (i 1).val
      ∧ (i 1).val < win0_3.index ⟨4 * ((i 1).val / 2048) + 3, ht⟩ (1 : Fin 2) * 2048 + 2048
    omega

end Cert.KernelIdeal.KerValue

end
-- ==== Proof.Bits.lean ====
/-
  The arithmetic of one stochastic-computing bit, on scalars, and of the final comparison.

  Both programs form the source value `src x` = round-half-even ((x + 1) · 128) of a probability entry `x` and
  compare it with an entry of the 256-entry one-dimensional Sobol sequence selected by the low byte of an
  index word `w`.  The kernel converts the source to a 32-bit integer (toward zero, clamped to the signed
  range) and compares it, as integers, with the threshold it computes in closed form: the Gray code of the low
  byte with its eight bits reversed (`kthr`).  The reference reduces the index modulo 256 by the host's
  truncating remainder and its sign repair (`ridx`), looks the float threshold up in the literal table, and
  compares as extended reals.  `kbit` and `rbit` are the two bits as extended reals (0 or 1); `kout` and
  `rout` the two forms of the closing test `acc + count ≥ 4096` as an extended real.
-/
import proofs.«419859_j75703093559676_3_alg».proof.ReferenceIdeal
import Idealize.ShloMosaic.PureOps.Ideal
import Idealize.ShloMosaic.Lib.ValueIdx

noncomputable section

namespace Cert.StochBits

open Idealize.ShloMosaic

/-- The source value: `(x + 1) · 128`, rounded to the nearest integer, ties to even (infinities fixed). -/
def src (x : EReal) : EReal :=
  FloatOps.roundeven (F := Ideal) (φ := .f32)
    (FloatOps.mulf (FloatOps.addf x (FloatOps.ofBits .f32 0x3F800000#32)) (FloatOps.ofBits .f32 0x43000000#32))

/-- The kernel's threshold word: the low byte of `w`, Gray-coded (`g xor (g >> 1)`), then its eight bits
    reversed by swapping nibbles, then pairs, then neighbours. -/
def kthr (w : BitVec 32) : BitVec 32 :=
  let v6 := IntOp.andi w 255#32
  let v14 := IntOp.shrsi .vector v6 1#32
  let v15 := IntOp.xori v6 v14
  let v17 := IntOp.andi v15 240#32
  let v19 := IntOp.shrsi .vector v17 4#32
  let v21 := IntOp.andi v15 15#32
  let v23 := IntOp.shli .vector v21 4#32
  let v24 := IntOp.ori v19 v23
  let v26 := IntOp.andi v24 204#32
  let v28 := IntOp.shrsi .vector v26 2#32
  let v30 := IntOp.andi v24 51#32
  let v32 := IntOp.shli .vector v30 2#32
  let v33 := IntOp.ori v28 v32
  let v35 := IntOp.andi v33 170#32
  let v37 := IntOp.shrsi .vector v35 1#32
  let v39 := IntOp.andi v33 85#32
  let v41 := IntOp.shli .vector v39 1#32
  IntOp.ori v37 v41

/-- The kernel's bit: 1 when the source, as a clamped 32-bit integer, exceeds the threshold word (signed), else 0. -/
def kbit (x : EReal) (w : BitVec 32) : EReal :=
  FloatOps.truncf (F := Ideal) (φ := .f32) .bf16 (by decide)
    (FloatOps.sitofp .f32 ((IntOp.cmpi .sgt (FloatOps.fptosi (F := Ideal) (φ := .f32) 32 (src x)) (kthr w)).setWidth 32))

/-- The reference's table index: the host's truncating remainder of `w` by 256, plus 256 when it is non-zero
    and of the other sign than the divisor (so: `w` modulo 256, in `[0, 256)`), then the wrap of a negative index. -/
def ridx (w : BitVec 32) : BitVec 32 :=
  let d : BitVec 32 := Scalar.select (IntOp.cmpi .eq (256#32 : BitVec 32) 0#32) 1#32 256#32
  let v4 := IntOp.remsi .host w d
  let v12 := IntOp.andi (IntOp.cmpi .ne (IntOp.cmpi .slt v4 0#32) (IntOp.cmpi .slt d 0#32)) (IntOp.cmpi .ne v4 0#32)
  let v5 := Scalar.select v12 (IntOp.addi v4 d) v4
  Scalar.select (IntOp.cmpi .slt v5 0#32) (IntOp.addi v5 256#32) v5

/-- The table entry the reference's gather reads for the index word `w`: the index read signed and clamped to the table. -/
def rthr (w : BitVec 32) : EReal :=
  FloatOps.ofBits (F := Ideal) .f32
    (Cert.ReferenceIdeal.lit0 (Cert.ReferenceIdeal.S256.rowMajor (ValueIdx.ix1 ⟨min (ridx w).toInt.toNat (256 - 1), by omega⟩)))

/-- The reference's bit: 1 when the source exceeds the table's entry, as extended reals, else 0. -/
def rbit (x : EReal) (w : BitVec 32) : EReal :=
  FloatOps.uitofp (F := Ideal) .f32 (FloatOps.cmpf (F := Ideal) (φ := .f32) .ogt (src x) (rthr w))

/-- The kernel's closing test `a + s ≥ 4096` as an extended real: the comparison's bit widened and read signed. -/
def kout (a s : EReal) : EReal :=
  FloatOps.sitofp (F := Ideal) .f32
    ((FloatOps.cmpf (F := Ideal) (φ := .f32) .oge (FloatOps.addf a s) (FloatOps.ofBits .f32 0x45800000#32)).setWidth 32)

/-- The reference's closing test `a + s ≥ 4096` as an extended real: the comparison's bit read unsigned. -/
def rout (a s : EReal) : EReal :=
  FloatOps.uitofp (F := Ideal) .f32
    (FloatOps.cmpf (F := Ideal) (φ := .f32) .oge (FloatOps.addf a s) (FloatOps.ofBits .f32 0x45800000#32))

/-- A one-bit word widened with zeros reads the same signed and unsigned. -/
theorem setWidth_one_toInt (b : BitVec 1) : (b.setWidth 32).toInt = (b.toNat : ℤ) := by
  revert b; decide

/-- The threshold word depends on the low byte of the index word only. -/
theorem kthr_low (w : BitVec 32) : kthr w = kthr (w &&& 255#32) := by
  simp only [kthr, IntOp.andi, BitVec.and_assoc, BitVec.and_self]

/-- Masking with 255 keeps the residue modulo 256. -/
theorem and_255 (w : BitVec 32) : w &&& 255#32 = BitVec.ofNat 32 (w.toNat % 256) := by
  apply BitVec.eq_of_toNat_eq
  have h := Nat.and_two_pow_sub_one_eq_mod w.toNat 8
  simp only [BitVec.toNat_and, BitVec.toNat_ofNat]
  norm_num at h ⊢
  omega

/-- The word `b` is the binary32 pattern of the natural number `k`: the zero word for 0, or a positive normal
    pattern whose 24-bit significand `2^23 + fr`, scaled by its exponent `ex - 150 ≤ 0`, is exactly `k`. -/
def IsNatPattern (b : BitVec 32) (k : ℕ) : Prop :=
  (b = 0#32 ∧ k = 0) ∨
  (b.extractLsb' 31 1 = 0#1 ∧ 127 ≤ (b.extractLsb' 23 8).toNat ∧ (b.extractLsb' 23 8).toNat ≤ 150 ∧
    2 ^ 23 + (b.extractLsb' 0 23).toNat = k * 2 ^ (150 - (b.extractLsb' 23 8).toNat))

instance (b : BitVec 32) (k : ℕ) : Decidable (IsNatPattern b k) := by
  unfold IsNatPattern; infer_instance

/-- A pattern of a natural number denotes that number. -/
theorem ieee_of_isNatPattern {b : BitVec 32} {k : ℕ} (h : IsNatPattern b k) :
    Ideal.ieee 8 23 b = ((k : ℝ) : EReal) := by
  rcases h with ⟨rfl, rfl⟩ | ⟨hs, hlo, hhi, hv⟩
  · simp [Ideal.ieee]
  · unfold Ideal.ieee
    simp only [hs]
    generalize (b.extractLsb' 23 8).toNat = ex at hlo hhi hv ⊢
    generalize (b.extractLsb' 0 23).toNat = fr at hv ⊢
    have h1 : ¬ ex = 2 ^ 8 - 1 := by norm_num; omega
    have h2 : ¬ ex = 0 := by omega
    obtain ⟨d, hd⟩ : ∃ d : ℕ, ex + d = 150 := ⟨150 - ex, by omega⟩
    have he : ((ex : ℤ) - (2 ^ (8 - 1) - 1) - ((23 : ℕ) : ℤ)) = -(d : ℤ) := by norm_num; omega
    have hd' : 150 - ex = d := by omega
    have hb : (0#1 == 1#1) = false := by decide
    rw [if_neg h1, if_neg h2, hv, he, hd', zpow_neg, zpow_natCast, hb]
    congr 1
    push_cast
    field_simp

/-- The table, entry by entry: the threshold word of the byte `n` is below 256 and the `n`-th literal is its
    binary32 pattern (256 cases, each by evaluation). -/
theorem byte_table : ∀ n : Fin 256, (kthr (BitVec.ofNat 32 n.val)).toNat < 256 ∧
    IsNatPattern (Cert.ReferenceIdeal.lit0 n) (kthr (BitVec.ofNat 32 n.val)).toNat := by
  decide +kernel

/-- The divisor the reference selects is 256. -/
theorem ridx_divisor : (Scalar.select (IntOp.cmpi .eq (256#32 : BitVec 32) 0#32) 1#32 256#32 : BitVec 32) = 256#32 := by
  decide

/-- Division by 256 is not a corner of the signed division: the remainder is the truncating one. -/
theorem remsi_256 (w : BitVec 32) : IntOp.remsi .host w 256#32 = w.srem 256#32 := by
  have h : ¬ IntOp.SDivCorner w 256#32 := by
    rintro (h | ⟨_, h⟩) <;> exact absurd h (by decide)
  simp only [IntOp.remsi, if_neg h]

/-- The truncating remainder by 256 lies strictly between -256 and 256 and is congruent to the dividend. -/
theorem srem_256_toInt (w : BitVec 32) :
    -256 < (w.srem 256#32).toInt ∧ (w.srem 256#32).toInt < 256 ∧ (w.srem 256#32).toInt % 256 = w.toInt % 256 := by
  rw [BitVec.toInt_srem]
  have h256 : (256#32 : BitVec 32).toInt = 256 := by decide
  rw [h256]
  rcases le_or_gt 0 w.toInt with h | h
  · rw [Int.tmod_eq_emod_of_nonneg h]; omega
  · have : w.toInt.tmod 256 = -((-w.toInt) % 256) := by
      rw [← Int.tmod_eq_emod_of_nonneg (by omega), Int.neg_tmod, neg_neg]
    rw [this]; omega

/-- The reference's index, read signed, is the index word modulo 256. -/
theorem ridx_toInt (w : BitVec 32) : (ridx w).toInt = w.toInt % 256 := by
  obtain ⟨h1, h2, h3⟩ := srem_256_toInt w
  unfold ridx
  simp only [ridx_divisor, remsi_256]
  generalize w.srem 256#32 = v at h1 h2 h3 ⊢
  rw [← h3]
  have hadd : (v + 256#32).toInt = v.toInt + 256 := by
    rw [BitVec.toInt_add]
    have h256 : (256#32 : BitVec 32).toInt = 256 := by decide
    rw [h256]
    apply Int.bmod_eq_of_le_mul_two <;> omega
  by_cases hv : v.toInt < 0
  · have hs : v.slt 0#32 = true := by rw [BitVec.slt_eq_decide]; simpa using hv
    have hne : (v != 0#32) = true := by
      rw [bne_iff_ne]; rintro rfl; simp at hv
    have hs2 : (v + 256#32).slt 0#32 = false := by
      rw [BitVec.slt_eq_decide, hadd]; simp; omega
    simp [IntOp.cmpi, IntOp.andi, IntOp.addi, Scalar.select, hs, hne, hs2]
    rw [Int.bmod_eq_of_le_mul_two (by omega) (by omega)]; omega
  · have hs : v.slt 0#32 = false := by rw [BitVec.slt_eq_decide]; simpa using hv
    simp [IntOp.cmpi, IntOp.andi, IntOp.addi, Scalar.select, hs]
    omega

/-- The table position the reference reads for the index word `w` is its low byte. -/
theorem ridx_pos (w : BitVec 32) : min (ridx w).toInt.toNat (256 - 1) = w.toNat % 256 := by
  rw [ridx_toInt, BitVec.toInt_eq_toNat_cond]
  split <;> omega

/-- A rounding extended to the infinities takes an integer value or an infinity. -/
theorem liftRound_cases (f : ℝ → ℤ) (y : EReal) :
    Ideal.liftRound f y = ⊥ ∨ Ideal.liftRound f y = ⊤ ∨ ∃ k : ℤ, Ideal.liftRound f y = ((k : ℝ) : EReal) := by
  induction y using EReal.rec with
  | bot => exact Or.inl rfl
  | top => exact Or.inr (Or.inl rfl)
  | coe r => exact Or.inr (Or.inr ⟨f r, rfl⟩)

/-- Comparing an integer value or an infinity `r` with a natural number `t < 256`: the conversion of `r` to a
    32-bit integer, toward zero and clamped to the signed range, is exact or lands beyond `t` on the same side, so
    the signed comparison of words says what the comparison of extended reals says. -/
theorem slt_fptosi (r : EReal) (hr : r = ⊥ ∨ r = ⊤ ∨ ∃ k : ℤ, r = ((k : ℝ) : EReal)) (t : ℕ) (ht : t < 256) :
    (BitVec.ofNat 32 t).slt (Ideal.fptosi 32 r) = decide (((t : ℝ) : EReal) < r) := by
  have ht' : (BitVec.ofNat 32 t).toInt = (t : ℤ) := by
    rw [BitVec.toInt_eq_toNat_of_lt] <;> simp only [BitVec.toNat_ofNat] <;> omega
  have hc : ∀ c : ℤ, -(2 ^ 31) ≤ c → c < 2 ^ 31 →
      (BitVec.ofNat 32 t).slt (BitVec.ofInt 32 c) = decide ((t : ℤ) < c) := by
    intro c h1 h2
    rw [BitVec.slt_eq_decide, ht', BitVec.toInt_ofInt_eq_self (by decide) (by simpa using h1) (by simpa using h2)]
  unfold Ideal.fptosi
  rcases hr with rfl | rfl | ⟨k, rfl⟩
  · rw [Ideal.toIntClamped_bot, hc _ (by norm_num) (by norm_num)]
    simp
  · rw [Ideal.toIntClamped_top, hc _ (by norm_num) (by norm_num)]
    simp only [decide_eq_decide]
    exact ⟨fun _ => EReal.coe_lt_top _, fun _ => by norm_num; omega⟩
  · have hk : (if (0 : ℝ) ≤ (k : ℝ) then ⌊(k : ℝ)⌋ else ⌈(k : ℝ)⌉) = k := by split <;> simp
    have h31 : ((2 ^ (32 - 1) : ℕ) : ℤ) = 2147483648 := by norm_num
    rw [Ideal.toIntClamped_coe, hk, h31, hc _ (by omega) (by omega), decide_eq_decide, EReal.coe_lt_coe_iff]
    constructor
    · intro h
      have h' : (t : ℤ) < k := by omega
      exact_mod_cast h'
    · intro h
      have h' : (t : ℤ) < k := by exact_mod_cast h
      omega

/-- The entry the reference reads for the index word `w` is the literal at the low byte of `w`. -/
theorem rthr_eq (w : BitVec 32) (h : w.toNat % 256 < 256) :
    rthr w = Ideal.ieee 8 23 (Cert.ReferenceIdeal.lit0 ⟨w.toNat % 256, h⟩) := by
  have hi : (Cert.ReferenceIdeal.S256.rowMajor
      (ValueIdx.ix1 ⟨min (ridx w).toInt.toNat (256 - 1), by omega⟩) : Fin 256) = ⟨w.toNat % 256, h⟩ :=
    Fin.ext (by rw [Shape.rowMajor_val_one]; exact ridx_pos w)
  unfold rthr
  rw [hi]
  rfl

/-- The two bits agree: the table's entry at `w mod 256` is the integer `kthr w` denotes, that integer lies in
    `[0, 256)`, and conversion to a clamped integer is monotone and exact on the integers of the signed range, so
    comparing the rounded source with it before or after the conversion gives the same answer. -/
theorem kbit_eq_rbit (x : EReal) (w : BitVec 32) : kbit x w = rbit x w := by
  have hn : w.toNat % 256 < 256 := by omega
  obtain ⟨hlt, hpat⟩ := byte_table ⟨w.toNat % 256, hn⟩
  have hk : kthr w = BitVec.ofNat 32 (kthr (BitVec.ofNat 32 (w.toNat % 256))).toNat := by
    rw [kthr_low, and_255, BitVec.ofNat_toNat, BitVec.setWidth_eq]
  have hr : rthr w = (((kthr (BitVec.ofNat 32 (w.toNat % 256))).toNat : ℝ) : EReal) := by
    rw [rthr_eq w hn]; exact ieee_of_isNatPattern hpat
  have hcmp : (kthr w).slt (Ideal.fptosi 32 (src x)) = decide (rthr w < src x) := by
    rw [hk, hr]
    exact slt_fptosi _ (liftRound_cases _ _) _ hlt
  show ((((BitVec.ofBool ((kthr w).slt (Ideal.fptosi 32 (src x)))).setWidth 32).toInt : ℝ) : EReal)
    = (((BitVec.ofBool (decide (rthr w < src x))).toNat : ℝ) : EReal)
  rw [setWidth_one_toInt, hcmp]; simp

/-- The two closing tests agree: a one-bit word widened with zeros reads the same signed and unsigned. -/
theorem kout_eq_rout (a s : EReal) : kout a s = rout a s := by
  show ((((_ : BitVec 1).setWidth 32).toInt : ℝ) : EReal) = (((_ : BitVec 1).toNat : ℝ) : EReal)
  rw [setWidth_one_toInt]; simp

end Cert.StochBits

end
-- ==== Proof.KerLane.lean ====
/-
  One lane of the kernel's arithmetic at the ideal values.

  A row tile's update of the running count, read at column `q`, is the old count there plus the number of the
  tile's 1024 rows whose bit is set: the matrix product of a row of ones with the tile's bits is, over the
  extended reals, the plain sum down the column (the row of ones contributes the factor 1, the zero accumulator
  nothing).  The closing test at a lane is the scalar one, and the zero row reads 0.
-/
import proofs.«419859_j75703093559676_3_alg».proof.Proof.KerPieces
import proofs.«419859_j75703093559676_3_alg».proof.Proof.Bits
import Idealize.ShloMosaic.Lib.ValueIdx
import Idealize.ShloMosaic.Lib.Pipeline.Value
import Idealize.ShloMosaic.PureOps.Ideal.Laws

set_option maxRecDepth 16384

noncomputable section

open Idealize.ShloMosaic Idealize.ShloMosaic.TcCoe Idealize.SL.Sem
open Idealize.ShloMosaic.ValueIdx

namespace Cert.KernelIdeal.KerValue

open Cert.KernelIdeal Cert.KernelIdeal.Gen
open Cert.StochBits (kbit kout)

/-- The bf16 word `0x3F80` is the number one. -/
theorem one_bf16 : Ideal.ofBits .bf16 0x3F80#16 = 1 := by
  simp [Ideal.ofBits, Ideal.ieee]
  rw [← EReal.coe_mul]
  norm_num

/-- The right operand's index at output index `j` and contraction position `k`: row `k`, -/
theorem rhs_ax0 (j : S1x2048.Idx) (k : dot_S1x1024_S1024x2048_S1x2048_1_0_0_1_n_n.contr.Idx) :
    ((dot_S1x1024_S1024x2048_S1x2048_1_0_0_1_n_n.rhsIdx j k) 0).val = (k ⟨0, by decide⟩).val :=
  dot_S1x1024_S1024x2048_S1x2048_1_0_0_1_n_n.rhsIdx_val_of_single (cr := 0) rfl j k

/-- column the output's column. -/
theorem rhs_ax1 (j : S1x2048.Idx) (k : dot_S1x1024_S1024x2048_S1x2048_1_0_0_1_n_n.contr.Idx) :
    ((dot_S1x1024_S1024x2048_S1x2048_1_0_0_1_n_n.rhsIdx j k) 1).val = (j 1).val := by
  simp [DotDims.rhsIdx, dot_S1x1024_S1024x2048_S1x2048_1_0_0_1_n_n]
  rfl

/-- The update at column `q`: the old count plus the column's sum of the tile's bits. -/
theorem upd_apply (x : Vec Ideal S1024x2048 .f32) (p : Vec Ideal S1024x2048 .i32) (s : Vec Ideal S1x2048 .f32) (q : Fin 2048) :
    upd x p s (ix2 (0 : Fin 1) q) = s (ix2 (0 : Fin 1) q) + ∑ r : Fin 1024, kbit (x (ix2 r q)) (p (ix2 r q)) := by
  unfold upd k0_pay1
  rw [shapeCast_self]
  show s (ix2 (0 : Fin 1) q) + FloatOps.matmul (F := Ideal) dot_S1x1024_S1024x2048_S1x2048_1_0_0_1_n_n none _ _ (constant S1x2048 .f32 0x00000000#32) (ix2 (0 : Fin 1) q) = _
  rw [Ideal.matmul_constant_zero_apply]
  rw [← Equiv.sum_comp (contrEquiv1 dot_S1x1024_S1024x2048_S1x2048_1_0_0_1_n_n 1024 rfl rfl).symm]
  congr 1
  refine Finset.sum_congr rfl fun r _ => ?_
  have hidx : dot_S1x1024_S1024x2048_S1x2048_1_0_0_1_n_n.rhsIdx (ix2 (0 : Fin 1) q) ((contrEquiv1 dot_S1x1024_S1024x2048_S1x2048_1_0_0_1_n_n 1024 rfl rfl).symm r) = ix2 r q := by
    funext a
    apply Fin.ext
    match a with
    | ⟨0, _⟩ => exact (rhs_ax0 _ _).trans (contrEquiv1_symm_val dot_S1x1024_S1024x2048_S1x2048_1_0_0_1_n_n 1024 rfl rfl r)
    | ⟨1, _⟩ => exact rhs_ax1 _ _
  rw [hidx]
  show Ideal.ofBits .bf16 0x3F80#16 * kbit (x (ix2 r q)) (p (ix2 r q)) = _
  rw [one_bf16, one_mul]

/-- The closing test at column `q` is the scalar one of the two rows' entries there. -/
theorem pay2_apply (a s : Vec Ideal S1x2048 .f32) (q : Fin 2048) :
    k0_pay2 a s (ix2 (0 : Fin 1) q) = kout (a (ix2 (0 : Fin 1) q)) (s (ix2 (0 : Fin 1) q)) := by
  unfold k0_pay2
  rw [shapeCast_self]
  rfl

/-- The zero row reads 0. -/
theorem zrow_apply (q : Fin 2048) : (k0_pay3 (F := Ideal)) (ix2 (0 : Fin 1) q) = 0 := by
  unfold k0_pay3
  rw [shapeCast_self]
  exact Ideal.ofBits_zero_f32

end Cert.KernelIdeal.KerValue

end
-- ==== Proof.Tiles.lean ====
/-
  Four tiles of 1024 make the 4096 rows.

  The kernel adds up a column's bits tile by tile, from zero: `(((0 + T₀) + T₁) + T₂) + T₃` with `Tⱼ` the sum over rows
  `1024 j … 1024 j + 1023`.  Over the extended reals addition is associative and commutative and 0 is neutral, so this
  is the one sum over all 4096 rows.
-/
import Mathlib.Data.EReal.Basic
import Mathlib.Algebra.BigOperators.Fin

noncomputable section

namespace Cert.StochBits

open scoped BigOperators

/-- The sum of `g` over row tile `j`: rows `1024 j + r`, `r < 1024`. -/
def tsum (g : Fin 4096 → EReal) (j : ℕ) (hj : j < 4) : EReal :=
  ∑ r : Fin 1024, g ⟨1024 * j + r.val, by have := r.isLt; omega⟩

/-- The four tile sums, added in order from zero, are the sum over all rows. -/
theorem tiles_sum (g : Fin 4096 → EReal) :
    (((0 + tsum g 0 (by decide)) + tsum g 1 (by decide)) + tsum g 2 (by decide)) + tsum g 3 (by decide) = ∑ n : Fin 4096, g n := by
  obtain ⟨f, hf⟩ : ∃ f : ℕ → EReal, ∀ (i : ℕ) (h : i < 4096), f i = g ⟨i, h⟩ :=
    ⟨fun i => if h : i < 4096 then g ⟨i, h⟩ else 0, fun i h => dif_pos h⟩
  have hT : ∀ (j : ℕ) (hj : j < 4), tsum g j hj = ∑ r ∈ Finset.range 1024, f (1024 * j + r) := by
    intro j hj
    rw [← Fin.sum_univ_eq_sum_range (fun r => f (1024 * j + r)) 1024]
    exact Finset.sum_congr rfl (fun r _ => (hf _ _).symm)
  have hS : ∑ n : Fin 4096, g n = ∑ i ∈ Finset.range (1024 + 1024 + 1024 + 1024), f i := by
    rw [← Fin.sum_univ_eq_sum_range f 4096]
    exact Finset.sum_congr rfl (fun n _ => (hf _ n.isLt).symm)
  rw [hS, hT, hT, hT, hT, zero_add, Finset.sum_range_add, Finset.sum_range_add, Finset.sum_range_add]
  norm_num

end Cert.StochBits

end
-- ==== Proof.KerArray.lean ====
/-
  The kernel's result as one function of the argument arrays.

  The result row `G1` holds, at column `f`, the closing test of the accumulator's entry against the column's count,
  the count being the four row tiles' sums of bits added in order from zero.  A column tile's last grid point writes
  back exactly its block of that row (the scratch, unfolded over the tile's four points, is those four sums; each
  block entry is the array's entry at the tile's offset), and the column tiles' blocks tile the row, so the row ends
  at `G1`.  Around the kernel the host lays the accumulator out as one row before it and lays the result row back out
  as a vector after it: the result buffer ends at `Gk`, and no argument array changes.
-/
import proofs.«419859_j75703093559676_3_alg».proof.Proof.KerBlocks
import proofs.«419859_j75703093559676_3_alg».proof.Proof.KerLane
import proofs.«419859_j75703093559676_3_alg».proof.Proof.Tiles
import Idealize.ShloMosaic.Lib.Pipeline.Value
import Idealize.ShloMosaic.Lib.StableHlo.Run
import Idealize.ShloMosaic.Lib.ValueLayout

set_option maxRecDepth 16384

noncomputable section

open Idealize.ShloMosaic Idealize.ShloMosaic.TcCoe Idealize.SL.Sem
open Idealize.ShloMosaic.Pipeline (Dat)
open Idealize.ShloMosaic.ValueIdx

namespace Cert.KernelIdeal.KerValue

open Cert.KernelIdeal Cert.KernelIdeal.Gen
open Cert.StochBits (kbit kout)

variable (m : (ℓ : Loc nD τ sig) → Buf (Elt Ideal) ℓ) (ρ : Dev nD → PrngReg)

/-- Column `f`'s bits as a function of the row: the bit of probability `a0 (n, f)` against index word `a3 (n, f)`. -/
abbrev colBits (a0 : S4096x16384.Idx → EReal) (a3 : S4096x16384.Idx → BitVec 32) (f : Fin 16384) : Fin 4096 → EReal :=
  fun n => kbit (a0 (ix2 n f)) (a3 (ix2 n f))

/-- The result row, as one function of the two big arrays and of the accumulator's row `av`: at column `f` the closing
    test of `av` there against the column's count, the four row tiles' sums added in order from zero. -/
def G1 (a0 : S4096x16384.Idx → EReal) (av : S1x16384.Idx → EReal) (a3 : S4096x16384.Idx → BitVec 32) :
    S1x16384.Idx → EReal := fun i =>
  kout (av i)
    ((((0 + Cert.StochBits.tsum (colBits a0 a3 ⟨(i 1).val, (i 1).isLt⟩) 0 (by decide))
      + Cert.StochBits.tsum (colBits a0 a3 ⟨(i 1).val, (i 1).isLt⟩) 1 (by decide))
      + Cert.StochBits.tsum (colBits a0 a3 ⟨(i 1).val, (i 1).isLt⟩) 2 (by decide))
      + Cert.StochBits.tsum (colBits a0 a3 ⟨(i 1).val, (i 1).isLt⟩) 3 (by decide))

/-- A point's sum down column `q` of its blocks is the row tile's sum of the arrays' column `2048 k + q`. -/
theorem tile_eq (c : Dev nD) (t : Fin cfg0.N) (j k : ℕ) (hj : t.val % 4 = j) (hk : t.val / 4 = k) (hj4 : j < 4)
    (q : Fin 2048) (h2 : 2048 * k + q.val < 16384) :
    ∑ r : Fin 1024, kbit (pblk m c t (ix2 r q)) (wblk m c t (ix2 r q))
      = Cert.StochBits.tsum (colBits (V m c main_arg0) (V m c main_arg3) ⟨2048 * k + q.val, h2⟩) j hj4 := by
  unfold Cert.StochBits.tsum
  refine Finset.sum_congr rfl fun r _ => ?_
  have hr := r.isLt
  rw [pblk_apply m c t j k hj hk r q (by omega) h2, wblk_apply m c t j k hj hk r q (by omega) h2]

/-- What a column tile's last point writes back is its block of the result row `G1` of the arrays as the region finds them. -/
theorem flushed3_eq (c : Dev nD) (t : Fin cfg0.N) (hf : (cfg0.win 3).flush t = true) :
    (dats m 0 c).flushed 3 t
      = ((cfg0.win 3).blk t).view.read (Elt Ideal) (G1 (V m c main_arg0) (V m c main_v0) (V m c main_arg3)) := by
  have hN : cfg0.N = 32 := N_0
  have h3 : t.val % 4 = 3 := (flush0_3 t).mp hf
  obtain ⟨tv, htv⟩ := t
  dsimp only at h3
  obtain ⟨n, rfl⟩ : ∃ n, tv = n + 1 + 1 + 1 := ⟨tv - 3, by omega⟩
  have h0 : n % 4 = 0 := by omega
  show (cfg0.win 3).cut (grid0.coords ⟨n + 1 + 1 + 1, htv⟩) ((dats m 0 c).after 3 ⟨n + 1 + 1 + 1, htv⟩) = _
  rw [after0_3]
  dsimp only
  rw [flush_block m c n htv h0]
  funext j
  obtain ⟨p0, q, rfl⟩ : ∃ (p0 : Fin 1) (q : Fin 2048), j = ix2 p0 q := ⟨j 0, j 1, eq_ix2 j⟩
  obtain rfl : p0 = 0 := Subsingleton.elim _ _
  have hq := q.isLt
  have hk : 2048 * (n / 4) + q.val < 16384 := by omega
  show k0_pay2 (ablk m c ⟨n + 1 + 1 + 1, htv⟩) _ (ix2 (0 : Fin 1) q)
    = G1 (V m c main_arg0) (V m c main_v0) (V m c main_arg3) (((cfg0.win 3).blk ⟨n + 1 + 1 + 1, htv⟩).view.emb (ix2 (0 : Fin 1) q))
  have hz0 : (zrow (F := Ideal)) (ix2 (0 : Fin 1) q) = 0 := zrow_apply q
  rw [pay2_apply, upd_apply, upd_apply, upd_apply, upd_apply, hz0]
  rw [emb3 ⟨n + 1 + 1 + 1, htv⟩ (n / 4) (by dsimp only; omega) q hk,
    ablk_apply m c ⟨n + 1 + 1 + 1, htv⟩ (n / 4) (by dsimp only; omega) q hk,
    tile_eq m c ⟨n + 1 + 1 + 1, htv⟩ 3 (n / 4) (by dsimp only; omega) (by dsimp only; omega) (by decide) q hk,
    tile_eq m c ⟨n + 1 + 1, Nat.lt_of_succ_lt htv⟩ 2 (n / 4) (by dsimp only; omega) (by dsimp only; omega) (by decide) q hk,
    tile_eq m c ⟨n + 1, Nat.lt_of_succ_lt (Nat.lt_of_succ_lt htv)⟩ 1 (n / 4) (by dsimp only; omega) (by dsimp only; omega) (by decide) q hk,
    tile_eq m c ⟨n, Nat.lt_of_succ_lt (Nat.lt_of_succ_lt (Nat.lt_of_succ_lt htv))⟩ 0 (n / 4) h0 rfl (by decide) q hk]
  rfl

/-- So the result row after the run is `G1` of the arrays as the region finds them: the column tiles' blocks tile it. -/
theorem final3 (c : Dev nD) :
    (dats m 0 c).arrAt 3 cfg0.N = G1 (V m c main_arg0) (V m c main_v0) (V m c main_arg3) :=
  (dats m 0 c).arrAt_eq_of_cover 3 (G1 (V m c main_arg0) (V m c main_v0) (V m c main_arg3))
    (fun t hf => flushed3_eq m c t hf) cover3

/-- The accumulator's row as the region finds it: the host's reshape of the accumulator to one row. -/
theorem V_v0 (c : Dev nD) :
    (V m c main_v0 : S1x16384.Idx → EReal)
      = shapeCast S1x16384 (m ((c : Thread nD τ).loc main_arg1)) shapeCasts_S16384_S1x16384 := by
  show StableHlo.after hostOps0 (fun b => m (c, b)) (Proc.devRef .tc main_v0) = _
  after_results
  rfl

/-- The kernel's result vector as one function of the argument arrays: the result row of the accumulator laid out as
    one row, laid back out as a vector. -/
def Gk (a0 : S4096x16384.Idx → EReal) (a1 : S16384.Idx → EReal) (a3 : S4096x16384.Idx → BitVec 32) : S16384.Idx → EReal :=
  shapeCast S16384 (G1 a0 (shapeCast S1x16384 a1 shapeCasts_S16384_S1x16384) a3) shapeCasts_S1x16384_S16384

/-- What the host's closing reshape leaves in the result buffer. -/
theorem tail_v2 (c : Dev nD) :
    Pipeline.afterTail₀ cfgs (dats m) 0 (V0 m) [hostOps1] c main_v2
      = Gk (m ((c : Thread nD τ).loc main_arg0)) (m ((c : Thread nD τ).loc main_arg1)) (m ((c : Thread nD τ).loc main_arg3)) := by
  have e := (Pipeline.withArrays_arr spec0 launch0.win.arr_inj c (V0 m c) (fun w => (dats m 0 c).arrAt w cfg0.N) 3).trans (final3 m c)
  unfold Pipeline.afterTail₀
  show StableHlo.after hostOps1 _ (Proc.devRef .tc main_v2) = _
  after_results
  funext i
  show shapeCast S16384 (Pipeline.withArrays spec0 c (V0 m c) (fun w => (dats m 0 c).arrAt w cfg0.N) (Proc.devRef .tc main_v1)) shapeCasts_S1x16384_S16384 i = _
  rw [e, V_v0, V_main_arg0, V_main_arg3]
  rfl

/-- The kernel's run, read: the result buffer at `Gk` of the argument arrays, the arguments unchanged. -/
theorem run : θ_run defs (onTc (τ := τ) (main (F := Ideal))) ⟨m, fun _ => 0, ρ⟩ fun r => ∀ c : Dev nD,
      r.2.mem ((c.tc : Thread nD τ).loc main_v2)
        = Gk (m ((c.tc : Thread nD τ).loc main_arg0)) (m ((c.tc : Thread nD τ).loc main_arg1)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v2 (Pipeline.mem_restRefs_of main_v2 (by decide) (by decide))).trans (tail_v2 m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).1 1).trans (((dats m 0 c).arrAt_in 1 rfl _).trans ((A_eq m c 1).trans (V_main_arg3 m c)))⟩)
    (run_main m ρ)

/-- The kernel's result at output lane `f`: the closing test of the accumulator there against the column's count,
    the four row tiles' sums added in order from zero. -/
theorem Gk_apply (a0 : S4096x16384.Idx → EReal) (a1 : S16384.Idx → EReal) (a3 : S4096x16384.Idx → BitVec 32) (f : Fin 16384) :
    Gk a0 a1 a3 (ix1 f) = kout (a1 (ix1 f))
      ((((0 + Cert.StochBits.tsum (colBits a0 a3 f) 0 (by decide)) + Cert.StochBits.tsum (colBits a0 a3 f) 1 (by decide))
        + Cert.StochBits.tsum (colBits a0 a3 f) 2 (by decide)) + Cert.StochBits.tsum (colBits a0 a3 f) 3 (by decide)) := by
  unfold Gk
  rw [shapeCast_1a_a_apply]
  unfold G1
  rw [shapeCast_a_1a_apply]

end Cert.KernelIdeal.KerValue

end
-- ==== Proof.RefRun.lean ====
/-
  The reference program's run, and its result read at one output lane.

  The reference is a straight line of host operations once its three outlined functions (round, the
  remainder with its sign repair, and the select inside it) are written out at their call sites over the
  buffers each call names.  Listed in order they are forty-eight operations; the program is their sequence,
  so its run ends with every buffer at the fold of the operations' results over the launch contents.

  Read off at the result buffer that fold is a pure term of three of the four argument arrays (the second
  integer array is never read):
    * refIdx a3   : per element, the index word reduced modulo 256 by the truncating remainder and its sign
                    repair, then a negative index wrapped by 256;
    * refBits a0 a3 : per element, 1 when round-half-even((a0 + 1) * 128) exceeds the entry of the 256-entry
                    literal table gathered at that index, else 0;
    * refOut a0 a1 a3 : per output lane, 1 when a1 plus the column sum of the bits reaches 4096, else 0.
  The last theorem reads refOut at one lane as the scalar closing test applied to the plain sum over the 4096
  rows of the scalar bit.
-/
import proofs.«419859_j75703093559676_3_alg».proof.ReferenceIdeal
import proofs.«419859_j75703093559676_3_alg».proof.Proof.Gen.ReferenceIdeal
import Idealize.ShloMosaic.Lib.StableHlo.Run
import Idealize.ShloMosaic.PureOps.Ideal
import Idealize.ShloMosaic.PureOps.Ideal.Laws
import Idealize.ShloMosaic.Lib.ValueIdx
import proofs.«419859_j75703093559676_3_alg».proof.Proof.Bits

noncomputable section

namespace Cert.ReferenceIdeal.RefRun

open Cert.ReferenceIdeal Cert.ReferenceIdeal.Gen Idealize.ShloMosaic Idealize.ShloMosaic.TcCoe Idealize.SL.Sem Idealize.ShloMosaic.StableHlo

section Line

variable {F : FTy → Type} [FloatOps F]

/-- The program's forty-eight operations in order, the three calls written out over their records' buffers:
    round is one operation into the fourth value's buffer; the remainder is twenty-one (its select is the
    fifth of them), the last writing the fifth value's buffer. -/
abbrev ops : List (HloOp τ sig (Elt F)) :=
  [ nullary main_cst (fun i => FloatOps.ofBits .f32 (lit0 (S256.rowMajor i))),
    nullary main_cst_0 (constant S_ .f32 0x3F800000#32),
    unary main_cst_0 main_v0 (broadcastInDim S4096x16384 ![] bcast_S_S4096x16384 : (⟨S_, .f32⟩ : BufTy).Contents (Elt F) → (⟨S4096x16384, .f32⟩ : BufTy).Contents (Elt F)),
    binary main_arg0 main_v0 main_v1 (addf : (⟨S4096x16384, .f32⟩ : BufTy).Contents (Elt F) → (⟨S4096x16384, .f32⟩ : BufTy).Contents (Elt F) → (⟨S4096x16384, .f32⟩ : BufTy).Contents (Elt F)),
    nullary main_cst_1 (constant S_ .f32 0x43000000#32),
    unary main_cst_1 main_v2 (broadcastInDim S4096x16384 ![] bcast_S_S4096x16384 : (⟨S_, .f32⟩ : BufTy).Contents (Elt F) → (⟨S4096x16384, .f32⟩ : BufTy).Contents (Elt F)),
    binary main_v1 main_v2 main_v3 (mulf : (⟨S4096x16384, .f32⟩ : BufTy).Contents (Elt F) → (⟨S4096x16384, .f32⟩ : BufTy).Contents (Elt F) → (⟨S4096x16384, .f32⟩ : BufTy).Contents (Elt F)),
    unary main_v3 main_v4 (Host.roundeven : (⟨S4096x16384, .f32⟩ : BufTy).Contents (Elt F) → (⟨S4096x16384, .f32⟩ : BufTy).Contents (Elt F)),
    nullary main_c (constantI S_ 32 256#32),
    unary main_c main_call1_v0 (id : (⟨S_, .i32⟩ : BufTy).Contents (Elt F) → (⟨S_, .i32⟩ : BufTy).Contents (Elt F)),
    nullary main_call1_c (constantI S_ 32 0#32),
    binary main_call1_v0 main_call1_c main_call1_v1 (cmpi .eq : (⟨S_, .i32⟩ : BufTy).Contents (Elt F) → (⟨S_, .i32⟩ : BufTy).Contents (Elt F) → (⟨S_, .i1⟩ : BufTy).Contents (Elt F)),
    nullary main_call1_c_0 (constantI S_ 32 1#32),
    ternary main_call1_v1 main_call1_c_0 main_call1_v0 main_call1_v2 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    unary main_call1_v2 main_call1_v3 (broadcastInDim S4096x16384 ![] bcast_S_S4096x16384 : (⟨S_, .i32⟩ : BufTy).Contents (Elt F) → (⟨S4096x16384, .i32⟩ : BufTy).Contents (Elt F)),
    binary main_arg3 main_call1_v3 main_call1_v4 (Host.remsi : (⟨S4096x16384, .i32⟩ : BufTy).Contents (Elt F) → (⟨S4096x16384, .i32⟩ : BufTy).Contents (Elt F) → (⟨S4096x16384, .i32⟩ : BufTy).Contents (Elt F)),
    nullary main_call1_c_1 (constantI S_ 32 0#32),
    unary main_call1_c_1 main_call1_v5 (broadcastInDim S4096x16384 ![] bcast_S_S4096x16384 : (⟨S_, .i32⟩ : BufTy).Contents (Elt F) → (⟨S4096x16384, .i32⟩ : BufTy).Contents (Elt F)),
    binary main_call1_v4 main_call1_v5 main_call1_v6 (cmpi .ne : (⟨S4096x16384, .i32⟩ : BufTy).Contents (Elt F) → (⟨S4096x16384, .i32⟩ : BufTy).Contents (Elt F) → (⟨S4096x16384, .i1⟩ : BufTy).Contents (Elt F)),
    nullary main_call1_c_2 (constantI S_ 32 0#32),
    unary main_call1_c_2 main_call1_v7 (broadcastInDim S4096x16384 ![] bcast_S_S4096x16384 : (⟨S_, .i32⟩ : BufTy).Contents (Elt F) → (⟨S4096x16384, .i32⟩ : BufTy).Contents (Elt F)),
    binary main_call1_v4 main_call1_v7 main_call1_v8 (cmpi .slt : (⟨S4096x16384, .i32⟩ : BufTy).Contents (Elt F) → (⟨S4096x16384, .i32⟩ : BufTy).Contents (Elt F) → (⟨S4096x16384, .i1⟩ : BufTy).Contents (Elt F)),
    nullary main_call1_c_3 (constantI S_ 32 0#32),
    binary main_call1_v2 main_call1_c_3 main_call1_v9 (cmpi .slt : (⟨S_, .i32⟩ : BufTy).Contents (Elt F) → (⟨S_, .i32⟩ : BufTy).Contents (Elt F) → (⟨S_, .i1⟩ : BufTy).Contents (Elt F)),
    unary main_call1_v9 main_call1_v10 (broadcastInDim S4096x16384 ![] bcast_S_S4096x16384 : (⟨S_, .i1⟩ : BufTy).Contents (Elt F) → (⟨S4096x16384, .i1⟩ : BufTy).Contents (Elt F)),
    binary main_call1_v8 main_call1_v10 main_call1_v11 (cmpi .ne : (⟨S4096x16384, .i1⟩ : BufTy).Contents (Elt F) → (⟨S4096x16384, .i1⟩ : BufTy).Contents (Elt F) → (⟨S4096x16384, .i1⟩ : BufTy).Contents (Elt F)),
    binary main_call1_v11 main_call1_v6 main_call1_v12 (andi : (⟨S4096x16384, .i1⟩ : BufTy).Contents (Elt F) → (⟨S4096x16384, .i1⟩ : BufTy).Contents (Elt F) → (⟨S4096x16384, .i1⟩ : BufTy).Contents (Elt F)),
    unary main_call1_v2 main_call1_v13 (broadcastInDim S4096x16384 ![] bcast_S_S4096x16384 : (⟨S_, .i32⟩ : BufTy).Contents (Elt F) → (⟨S4096x16384, .i32⟩ : BufTy).Contents (Elt F)),
    binary main_call1_v4 main_call1_v13 main_call1_v14 (addi : (⟨S4096x16384, .i32⟩ : BufTy).Contents (Elt F) → (⟨S4096x16384, .i32⟩ : BufTy).Contents (Elt F) → (⟨S4096x16384, .i32⟩ : BufTy).Contents (Elt F)),
    ternary main_call1_v12 main_call1_v14 main_call1_v4 main_v5 (select : (⟨S4096x16384, .i1⟩ : BufTy).Contents (Elt F) → (⟨S4096x16384, .i32⟩ : BufTy).Contents (Elt F) → (⟨S4096x16384, .i32⟩ : BufTy).Contents (Elt F) → (⟨S4096x16384, .i32⟩ : BufTy).Contents (Elt F)),
    nullary main_c_2 (constantI S_ 32 0#32),
    unary main_c_2 main_v6 (broadcastInDim S4096x16384 ![] bcast_S_S4096x16384 : (⟨S_, .i32⟩ : BufTy).Contents (Elt F) → (⟨S4096x16384, .i32⟩ : BufTy).Contents (Elt F)),
    binary main_v5 main_v6 main_v7 (cmpi .slt : (⟨S4096x16384, .i32⟩ : BufTy).Contents (Elt F) → (⟨S4096x16384, .i32⟩ : BufTy).Contents (Elt F) → (⟨S4096x16384, .i1⟩ : BufTy).Contents (Elt F)),
    nullary main_c_3 (constantI S_ 32 256#32),
    unary main_c_3 main_v8 (broadcastInDim S4096x16384 ![] bcast_S_S4096x16384 : (⟨S_, .i32⟩ : BufTy).Contents (Elt F) → (⟨S4096x16384, .i32⟩ : BufTy).Contents (Elt F)),
    binary main_v5 main_v8 main_v9 (addi : (⟨S4096x16384, .i32⟩ : BufTy).Contents (Elt F) → (⟨S4096x16384, .i32⟩ : BufTy).Contents (Elt F) → (⟨S4096x16384, .i32⟩ : BufTy).Contents (Elt F)),
    ternary main_v7 main_v9 main_v5 main_v10 (select : (⟨S4096x16384, .i1⟩ : BufTy).Contents (Elt F) → (⟨S4096x16384, .i32⟩ : BufTy).Contents (Elt F) → (⟨S4096x16384, .i32⟩ : BufTy).Contents (Elt F) → (⟨S4096x16384, .i32⟩ : BufTy).Contents (Elt F)),
    unary main_v10 main_v11 (broadcastInDim S4096x16384x1 ![0, 1] bcast_S4096x16384_S4096x16384x1_0_1 : (⟨S4096x16384, .i32⟩ : BufTy).Contents (Elt F) → (⟨S4096x16384x1, .i32⟩ : BufTy).Contents (Elt F)),
    binary main_cst main_v11 main_v12 ((fun x i => Host.gather gather_S256_S4096x16384x1_S4096x16384_n_0_n_n_0_2_1 x i) : (⟨S256, .f32⟩ : BufTy).Contents (Elt F) → (⟨S4096x16384x1, .i32⟩ : BufTy).Contents (Elt F) → (⟨S4096x16384, .f32⟩ : BufTy).Contents (Elt F)),
    binary main_v4 main_v12 main_v13 (cmpf .ogt : (⟨S4096x16384, .f32⟩ : BufTy).Contents (Elt F) → (⟨S4096x16384, .f32⟩ : BufTy).Contents (Elt F) → (⟨S4096x16384, .i1⟩ : BufTy).Contents (Elt F)),
    unary main_v13 main_v14 (uitofp .f32 : (⟨S4096x16384, .i1⟩ : BufTy).Contents (Elt F) → (⟨S4096x16384, .f32⟩ : BufTy).Contents (Elt F)),
    nullary main_cst_4 (constant S_ .f32 0x00000000#32),
    binary main_v14 main_cst_4 main_v15 ((fun x v => Host.reduceAdd x v reducesTo_S4096x16384_S16384_d0 h_S_) : (⟨S4096x16384, .f32⟩ : BufTy).Contents (Elt F) → (⟨S_, .f32⟩ : BufTy).Contents (Elt F) → (⟨S16384, .f32⟩ : BufTy).Contents (Elt F)),
    binary main_arg1 main_v15 main_v16 (addf : (⟨S16384, .f32⟩ : BufTy).Contents (Elt F) → (⟨S16384, .f32⟩ : BufTy).Contents (Elt F) → (⟨S16384, .f32⟩ : BufTy).Contents (Elt F)),
    nullary main_cst_5 (constant S_ .f32 0x45800000#32),
    unary main_cst_5 main_v17 (broadcastInDim S16384 ![] bcast_S_S16384 : (⟨S_, .f32⟩ : BufTy).Contents (Elt F) → (⟨S16384, .f32⟩ : BufTy).Contents (Elt F)),
    binary main_v16 main_v17 main_v18 (cmpf .oge : (⟨S16384, .f32⟩ : BufTy).Contents (Elt F) → (⟨S16384, .f32⟩ : BufTy).Contents (Elt F) → (⟨S16384, .i1⟩ : BufTy).Contents (Elt F)),
    unary main_v18 main_v19 (uitofp .f32 : (⟨S16384, .i1⟩ : BufTy).Contents (Elt F) → (⟨S16384, .f32⟩ : BufTy).Contents (Elt F)) ]

-- forty-eight binds re-associated: the rewrite under the chain recurses once per statement
set_option maxRecDepth 2048 in
/-- The program is that straight line: the outlined functions unfolded at their calls, both sides are one
    chain of steps once sequencing is re-associated; a typed reference at a literal buffer is that buffer,
    and moving a function along a type equation that is an identity does nothing. -/
theorem main_eq (c : Dev nD) : main (F := F) c = seq ops := by
  simp only [main, fn_round.body, fn_where.body, fn_remainder.body, seq, bind_assoc, pure_bind]
  rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., nullary_bufs_sub .., unary_bufs_sub .., binary_bufs_sub .., nullary_bufs_sub .., unary_bufs_sub .., binary_bufs_sub .., unary_bufs_sub .., nullary_bufs_sub .., unary_bufs_sub .., nullary_bufs_sub .., binary_bufs_sub .., nullary_bufs_sub .., ternary_bufs_sub .., unary_bufs_sub .., binary_bufs_sub .., nullary_bufs_sub .., unary_bufs_sub .., binary_bufs_sub .., nullary_bufs_sub .., unary_bufs_sub .., binary_bufs_sub .., nullary_bufs_sub .., binary_bufs_sub .., unary_bufs_sub .., binary_bufs_sub .., binary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., binary_bufs_sub .., binary_bufs_sub .., unary_bufs_sub .., nullary_bufs_sub .., binary_bufs_sub .., binary_bufs_sub .., nullary_bufs_sub .., unary_bufs_sub .., binary_bufs_sub .., unary_bufs_sub ..⟩

end Line

section Result

/-- The divisor the remainder uses, a rank-0 word: 256, or 1 were it zero. -/
def refDiv : (⟨S_, .i32⟩ : BufTy).Contents (Elt Ideal) :=
  select (cmpi .eq (id (constantI S_ 32 256#32)) (constantI S_ 32 0#32)) (constantI S_ 32 1#32) (id (constantI S_ 32 256#32))

/-- The table index per element: the truncating remainder of the index word by the divisor; the divisor added
    back when the remainder is non-zero and of the other sign than the divisor; then 256 added to a negative index. -/
def refIdx (a3 : (⟨S4096x16384, .i32⟩ : BufTy).Contents (Elt Ideal)) : (⟨S4096x16384, .i32⟩ : BufTy).Contents (Elt Ideal) :=
  let d := broadcastInDim S4096x16384 ![] bcast_S_S4096x16384 refDiv
  let v4 := Host.remsi a3 d
  let v6 := cmpi .ne v4 (broadcastInDim S4096x16384 ![] bcast_S_S4096x16384 (constantI S_ 32 0#32))
  let v8 := cmpi .slt v4 (broadcastInDim S4096x16384 ![] bcast_S_S4096x16384 (constantI S_ 32 0#32))
  let v10 := broadcastInDim S4096x16384 ![] bcast_S_S4096x16384 (cmpi .slt refDiv (constantI S_ 32 0#32))
  let v12 := andi (cmpi .ne v8 v10) v6
  let v5 := select v12 (addi v4 d) v4
  select (cmpi .slt v5 (broadcastInDim S4096x16384 ![] bcast_S_S4096x16384 (constantI S_ 32 0#32)))
    (addi v5 (broadcastInDim S4096x16384 ![] bcast_S_S4096x16384 (constantI S_ 32 256#32))) v5

/-- The 256-entry literal table as extended reals. -/
def refTable : (⟨S256, .f32⟩ : BufTy).Contents (Elt Ideal) :=
  fun i => FloatOps.ofBits (F := Ideal) .f32 (lit0 (S256.rowMajor i))

/-- The bit per element: 1 when round-half-even((a0 + 1) * 128) exceeds the table's entry gathered at the
    element's index, else 0. -/
def refBits (a0 : (⟨S4096x16384, .f32⟩ : BufTy).Contents (Elt Ideal)) (a3 : (⟨S4096x16384, .i32⟩ : BufTy).Contents (Elt Ideal)) : (⟨S4096x16384, .f32⟩ : BufTy).Contents (Elt Ideal) :=
  uitofp (F := Ideal) .f32
    (cmpf (F := Ideal) .ogt
      (Host.roundeven (F := Ideal)
        (mulf (F := Ideal) (addf (F := Ideal) a0 (broadcastInDim S4096x16384 ![] bcast_S_S4096x16384 (constant (F := Ideal) S_ .f32 0x3F800000#32)))
          (broadcastInDim S4096x16384 ![] bcast_S_S4096x16384 (constant (F := Ideal) S_ .f32 0x43000000#32))))
      (Host.gather gather_S256_S4096x16384x1_S4096x16384_n_0_n_n_0_2_1 refTable
        (broadcastInDim S4096x16384x1 ![0, 1] bcast_S4096x16384_S4096x16384x1_0_1 (refIdx a3))))

/-- The result per output lane: 1 when a1 plus the column sum of the bits reaches 4096, else 0. -/
def refOut (a0 : (⟨S4096x16384, .f32⟩ : BufTy).Contents (Elt Ideal)) (a1 : (⟨S16384, .f32⟩ : BufTy).Contents (Elt Ideal)) (a3 : (⟨S4096x16384, .i32⟩ : BufTy).Contents (Elt Ideal)) : (⟨S16384, .f32⟩ : BufTy).Contents (Elt Ideal) :=
  uitofp (F := Ideal) .f32
    (cmpf (F := Ideal) .oge
      (addf (F := Ideal) a1 (Host.reduceAdd (F := Ideal) (refBits a0 a3) (constant (F := Ideal) S_ .f32 0x00000000#32) reducesTo_S4096x16384_S16384_d0 h_S_))
      (broadcastInDim S16384 ![] bcast_S_S16384 (constant (F := Ideal) S_ .f32 0x45800000#32)))

/-- From any memory with zero counters every weakly fair execution of the program terminates with the result
    buffer at refOut of the launch contents of the three arrays it reads, and all four arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v19)
          = refOut (m ((c.tc : Thread nD τ).loc main_arg0)) (m ((c.tc : Thread nD τ).loc main_arg1)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(h c main_v19).trans (by after_results_simp <;> rfl),
      (h c main_arg0).trans (by after_results_simp),
      (h c main_arg1).trans (by after_results_simp),
      (h c main_arg2).trans (by after_results_simp),
      (h c main_arg3).trans (by after_results_simp)⟩)
    (run_seq scopedRefs_eq scopedSems_eq defs main (fun _ => ops) main_eq (fun _ => ops_sub) m ρ)

end Result

section Apply

open scoped BigOperators
open Idealize.ShloMosaic.ValueIdx Cert.StochBits

/-- The table index at an element is the scalar index of that element's word: each vector operation reads
    elementwise, and a broadcast rank-0 word reads that word everywhere. -/
theorem refIdx_apply (a3 : (⟨S4096x16384, .i32⟩ : BufTy).Contents (Elt Ideal)) (i : S4096x16384.Idx) : refIdx a3 i = ridx (a3 i) := rfl

/-- An array [4096, 16384] given a trailing unit axis, read at [t, j, 0], is the array at (t, j): neither of its
    axes has extent one, so each coordinate is copied. -/
theorem unitAxis_apply {α : Type} (x : S4096x16384.Idx → α) (y : S4096x16384.Idx) :
    (broadcastInDim S4096x16384x1 ![0, 1] bcast_S4096x16384_S4096x16384x1_0_1 x) (takeIdx y) = x y := by
  unfold broadcastInDim
  refine congrArg x (funext fun a => Fin.ext ?_)
  match a with
  | ⟨0, _⟩ => rfl
  | ⟨1, _⟩ => rfl

/-- The gather's dimension numbers are those of taking from a flat table of 256 entries at a [4096, 16384]
    array of indices. -/
theorem gatherDims_eq : gather_S256_S4096x16384x1_S4096x16384_n_0_n_n_0_2_1 = takeDims 256 4096 16384 gather_S256_S4096x16384x1_S4096x16384_n_0_n_n_0_2_1_wf := rfl

/-- The scalar threshold is the table read at the scalar index, signed and clamped to the table. -/
theorem rthr_eq (w : BitVec 32) : rthr w = refTable (ix1 ⟨min (ridx w).toInt.toNat (256 - 1), by omega⟩) := rfl

/-- The gathered entry at an element is the scalar threshold of that element's word. -/
theorem gather_apply (a3 : (⟨S4096x16384, .i32⟩ : BufTy).Contents (Elt Ideal)) (i : S4096x16384.Idx) :
    Host.gather gather_S256_S4096x16384x1_S4096x16384_n_0_n_n_0_2_1 refTable (broadcastInDim S4096x16384x1 ![0, 1] bcast_S4096x16384_S4096x16384x1_0_1 (refIdx a3)) i = rthr (a3 i) := by
  have h1 := gather_take_apply (N := 256) (R := 4096) (C := 16384) (w := 32) (by decide) gather_S256_S4096x16384x1_S4096x16384_n_0_n_n_0_2_1_wf refTable
    (broadcastInDim S4096x16384x1 ![0, 1] bcast_S4096x16384_S4096x16384x1_0_1 (refIdx a3)) i
  rw [gatherDims_eq, h1, rthr_eq]
  refine congrArg refTable (congrArg ix1 (Fin.ext ?_))
  show min ((broadcastInDim S4096x16384x1 ![0, 1] bcast_S4096x16384_S4096x16384x1_0_1 (refIdx a3)) (takeIdx i)).toInt.toNat (256 - 1) = min (ridx (a3 i)).toInt.toNat (256 - 1)
  rw [unitAxis_apply, refIdx_apply]

/-- The bit at an element, with the gathered entry still named: every other operation reads elementwise. -/
theorem refBits_unfold (a0 : (⟨S4096x16384, .f32⟩ : BufTy).Contents (Elt Ideal)) (a3 : (⟨S4096x16384, .i32⟩ : BufTy).Contents (Elt Ideal)) (i : S4096x16384.Idx) :
    refBits a0 a3 i = FloatOps.uitofp (F := Ideal) .f32 (FloatOps.cmpf (F := Ideal) (φ := .f32) .ogt (src (a0 i))
      (Host.gather gather_S256_S4096x16384x1_S4096x16384_n_0_n_n_0_2_1 refTable (broadcastInDim S4096x16384x1 ![0, 1] bcast_S4096x16384_S4096x16384x1_0_1 (refIdx a3)) i)) := rfl

/-- The bit at an element is the scalar bit of that element's entry and word. -/
theorem refBits_apply (a0 : (⟨S4096x16384, .f32⟩ : BufTy).Contents (Elt Ideal)) (a3 : (⟨S4096x16384, .i32⟩ : BufTy).Contents (Elt Ideal)) (i : S4096x16384.Idx) :
    refBits a0 a3 i = rbit (a0 i) (a3 i) := by
  rw [refBits_unfold, gather_apply]
  rfl

/-- Dropping the row axis of [4096, 16384] leaves [16384]. -/
theorem reduces_d0 : S4096x16384.Reduces [0] S16384 := by decide

/-- The source index over lane f with row n put back is (n, f). -/
theorem lift_eq (f : Fin 16384) (n : Fin 4096) : reduces_d0.lift (ix1 f) n = ix2 n f := by
  funext a
  match a with
  | ⟨0, _⟩ => exact Fin.ext rfl
  | ⟨1, _⟩ => exact Fin.ext rfl

/-- The host's column sum of the bits at lane f: its initial value is zero, so it is the plain sum over the 4096
    rows of the scalar bit. -/
theorem sum_apply (a0 : (⟨S4096x16384, .f32⟩ : BufTy).Contents (Elt Ideal)) (a3 : (⟨S4096x16384, .i32⟩ : BufTy).Contents (Elt Ideal)) (f : Fin 16384) :
    (Host.reduceAdd (F := Ideal) (refBits a0 a3) (constant (F := Ideal) S_ .f32 0x00000000#32) reducesTo_S4096x16384_S16384_d0 h_S_) (ix1 f) = ∑ n : Fin 4096, rbit (a0 (ix2 n f)) (a3 (ix2 n f)) := by
  show Ideal.hostReduceAdd reducesTo_S4096x16384_S16384_d0 (refBits a0 a3) (Ideal.ofBits .f32 0x00000000#32) (ix1 f) = _
  rw [Ideal.hostReduceAdd_single reducesTo_S4096x16384_S16384_d0 reduces_d0, Ideal.ofBits_zero_f32, zero_add]
  exact Finset.sum_congr rfl fun (n : Fin 4096) _ =>
    (congrArg (refBits a0 a3) (lift_eq f n)).trans (refBits_apply a0 a3 (ix2 n f))

/-- The result at a lane, with the column sum still named: the closing operations read elementwise, and the
    broadcast constant reads 4096 everywhere. -/
theorem refOut_unfold (a0 : (⟨S4096x16384, .f32⟩ : BufTy).Contents (Elt Ideal)) (a1 : (⟨S16384, .f32⟩ : BufTy).Contents (Elt Ideal)) (a3 : (⟨S4096x16384, .i32⟩ : BufTy).Contents (Elt Ideal)) (j : S16384.Idx) :
    refOut a0 a1 a3 j = rout (a1 j) ((Host.reduceAdd (F := Ideal) (refBits a0 a3) (constant (F := Ideal) S_ .f32 0x00000000#32) reducesTo_S4096x16384_S16384_d0 h_S_) j) := rfl

/-- The result at output lane f: the closing test on a1 there and the plain sum over the 4096 rows of the scalar bit. -/
theorem refOut_apply (a0 : (⟨S4096x16384, .f32⟩ : BufTy).Contents (Elt Ideal)) (a1 : (⟨S16384, .f32⟩ : BufTy).Contents (Elt Ideal)) (a3 : (⟨S4096x16384, .i32⟩ : BufTy).Contents (Elt Ideal)) (f : Fin 16384) :
    refOut a0 a1 a3 (ix1 f) = rout (a1 (ix1 f)) (∑ n : Fin 4096, rbit (a0 (ix2 n f)) (a3 (ix2 n f))) := by
  rw [refOut_unfold, sum_apply]

end Apply

end Cert.ReferenceIdeal.RefRun

end
-- ==== Proof.Bridge.lean ====
/-
  The reference's result is the kernel's.

  At output lane `f` the reference holds the closing test of the accumulator against the sum over all 4096 rows of
  its bits; the kernel holds the same test, spelled the other way, against the four row tiles' sums of its own bits
  added in order from zero.  The four tile sums are the whole sum; bit by bit the two programs agree; and the two
  spellings of the closing test agree.  So the two result vectors are one function of the argument arrays.
-/
import proofs.«419859_j75703093559676_3_alg».proof.Proof.KerArray
import proofs.«419859_j75703093559676_3_alg».proof.Proof.RefRun

noncomputable section

open Idealize.ShloMosaic Idealize.ShloMosaic.ValueIdx

namespace Cert.Proof.Bridge

open Cert.StochBits

/-- The reference's result term and the kernel's result function agree on every argument arrays. -/
theorem result_eq (a0 : Cert.KernelIdeal.S4096x16384.Idx → EReal) (a1 : Cert.KernelIdeal.S16384.Idx → EReal)
    (a3 : Cert.KernelIdeal.S4096x16384.Idx → BitVec 32) :
    Cert.ReferenceIdeal.RefRun.refOut a0 a1 a3 = Cert.KernelIdeal.KerValue.Gk a0 a1 a3 := by
  funext i
  obtain ⟨f, rfl⟩ : ∃ f : Fin 16384, i = ix1 f := ⟨i 0, eq_ix1 i⟩
  rw [Cert.ReferenceIdeal.RefRun.refOut_apply, Cert.KernelIdeal.KerValue.Gk_apply, tiles_sum, kout_eq_rout]
  exact congrArg (rout (a1 (ix1 f))) (Finset.sum_congr rfl fun n _ => (kbit_eq_rbit _ _).symm)

end Cert.Proof.Bridge

end
-- ==== Proof.lean ====
/-
  The certificate: a stochastic-computing accumulate-and-compare step, kernel against reference.

  Both programs turn each probability `p` of a 4096 × 16384 array into the source value round((p + 1) · 128), compare it
  with the entry of the 256-entry Sobol sequence selected by the low byte of an index word, count per column the
  comparisons that hold, add the count to an accumulator and answer, per column, whether the sum reaches 4096.  The
  kernel compares as 32-bit integers against the threshold in closed form (Gray code, bits reversed), counts a
  1024-row tile at a time with a product by a row of ones, and carries the count over a column tile's four grid
  points; the reference compares as numbers against the table and sums the whole column.  Over the extended reals
  the two results are one function of the arguments (`Bridge.result_eq`): the conversion to an integer is clamped and
  monotone, the table holds exactly the closed form's values, and the tiles' sums regroup the whole sum.

  The kernels' frames are the generated ones.  The reference's run is `RefRun.run`; the idealized kernel's run, read at
  its result buffer, is `KerValue.run`.  The idealization rewrote nothing, so `preserves` is trivial.
-/
import proofs.«419859_j75703093559676_3_alg».proof.Defs
import proofs.«419859_j75703093559676_3_alg».proof.Proof.Gen.Kernel
import proofs.«419859_j75703093559676_3_alg».proof.Proof.Gen.Kernel.Skeleton
import proofs.«419859_j75703093559676_3_alg».proof.Proof.Gen.Kernel.Launch
import proofs.«419859_j75703093559676_3_alg».proof.Proof.Gen.Kernel.Points
import proofs.«419859_j75703093559676_3_alg».proof.Proof.Gen.Kernel.Frame
import proofs.«419859_j75703093559676_3_alg».proof.Proof.Gen.KernelIdeal
import proofs.«419859_j75703093559676_3_alg».proof.Proof.Gen.KernelIdeal.Skeleton
import proofs.«419859_j75703093559676_3_alg».proof.Proof.Gen.KernelIdeal.Launch
import proofs.«419859_j75703093559676_3_alg».proof.Proof.Gen.KernelIdeal.Points
import proofs.«419859_j75703093559676_3_alg».proof.Proof.Gen.KernelIdeal.Frame
import proofs.«419859_j75703093559676_3_alg».proof.Proof.Gen.ReferenceIdeal
import proofs.«419859_j75703093559676_3_alg».proof.Proof.Gen.Pre_finite_inputs
import proofs.«419859_j75703093559676_3_alg».proof.Proof.Bridge
import Idealize.ShloMosaic.Adequacy
import Idealize.ShloMosaic.Init

noncomputable section

namespace Cert.Proof

open Idealize.ShloMosaic Idealize.SL.Sem

/-- The word-level kernel runs and leaves its arguments unchanged: the generated frame. -/
theorem frame_k : Cert.frame_Kernel (hKernel := Cert.Kernel.Gen.facts) (hPre_finite_inputs := Cert.Pre_finite_inputs.Gen.facts) :=
  fun m ρ _ => Cert.Kernel.Gen.frame m ρ

/-- The idealized kernel likewise. -/
theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- The reference runs and leaves its arguments unchanged: its run with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.RefRun.run m ρ)

/-- From memories agreeing on the arguments both idealized programs run, to one result. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨_, Cert.KernelIdeal.KerValue.run m ρ, ?_⟩
  refine (θ_run Cert.ReferenceIdeal.defs _ _).mono (fun _ h c => ⟨(h c).1.trans ?_, (h c).2⟩)
    (Cert.ReferenceIdeal.RefRun.run m' ρ')
  rw [(hagree c).1, (hagree c).2.1, (hagree c).2.2.2]
  exact Cert.Proof.Bridge.result_eq _ _ _

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
